-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x256 : Shape := ⟨2, ![256, 256]⟩
abbrev S256 : Shape := ⟨1, ![256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S256x256 .f32) (main_arg8 : FVec F S256 .f32) (main_arg9 : FVec F S256x256 .f32) (main_arg10 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S65536x256 .f32) (main_arg1 : FVec F S65536x256 .f32) (main_arg2 : FVec F S65536x256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_v13 main_v16
-- ==== Kernel.lean ====
abbrev S65536x256 : Shape := ⟨2, ![65536, 256]⟩
abbrev S256x256 : Shape := ⟨2, ![256, 256]⟩
abbrev S256 : Shape := ⟨1, ![256]⟩
abbrev S256x1024 : Shape := ⟨2, ![256, 1024]⟩
abbrev S1024 : Shape := ⟨1, ![1024]⟩
abbrev S1x1024 : Shape := ⟨2, ![1, 1024]⟩
abbrev S2048x256 : Shape := ⟨2, ![2048, 256]⟩
abbrev S2048x1024 : Shape := ⟨2, ![2048, 1024]⟩

abbrev nBuf : Space → Nat
  | .hbm => 22
  | .vmem => 14
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256x1024, .f32⟩
  | .hbm, ⟨16, _⟩ => ⟨S256x1024, .bf16⟩
  | .hbm, ⟨17, _⟩ => ⟨S1024, .f32⟩
  | .hbm, ⟨18, _⟩ => ⟨S1x1024, .f32⟩
  | .hbm, ⟨19, _⟩ => ⟨S65536x256, .f32⟩
  | .hbm, ⟨20, _⟩ => ⟨S65536x256, .f32⟩
  | .hbm, ⟨21, _⟩ => ⟨S65536x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x1024, .bf16⟩
  | .local _ .vmem, ⟨7, _⟩ => ⟨S1x1024, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S256x256_S256x256_1_0 : S256x256.Transposes [1, 0] S256x256
  concatenates_S256x256_S256x256_S256x256_S256x256_S256x1024_d1 : Shape.Concatenates [S256x256, S256x256, S256x256, S256x256] S256x1024 1
  bitsLt_bf16_f32 : FTy.bits .bf16 < FTy.bits .f32
  concatenates_S256_S256_S256_S256_S1024_d0 : Shape.Concatenates [S256, S256, S256, S256] S1024 0
  shapeCasts_S1024_S1x1024 : S1024.ShapeCasts S1x1024
  inb_S2048x256_S2048x256_0_0 : ∀ a, (![0, 0] : Fin 2 → Nat) a + S2048x256.size a ≤ S2048x256.size a
  h_S2048x256 : 0 < S2048x256.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  slices_S2048x1024_o0_0_S2048x256 : S2048x1024.Slices ![0, 0] S2048x256
  slices_S2048x1024_o0_256_S2048x256 : S2048x1024.Slices ![0, 256] S2048x256
  slices_S2048x1024_o0_512_S2048x256 : S2048x1024.Slices ![0, 512] S2048x256
  slices_S2048x1024_o0_768_S2048x256 : S2048x1024.Slices ![0, 768] S2048x256
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S65536x256.size a
  hwx0_1 : ∀ i : grid0.Coords, EltTy.bits .f32 = 32 ∨ (Rect.block (s := S65536x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S65536x256.size a
  hwx0_2 : ∀ i : grid0.Coords, EltTy.bits .f32 = 32 ∨ (Rect.block (s := S65536x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S65536x256.size a
  hwx0_5 : ∀ i : grid0.Coords, EltTy.bits .f32 = 32 ∨ (Rect.block (s := S65536x256) S2048x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S65536x256.size a
  hwx0_6 : ∀ i : grid0.Coords, EltTy.bits .f32 = 32 ∨ (Rect.block (s := S65536x256) S2048x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S65536x256.size a
  hwx0_7 : ∀ i : grid0.Coords, EltTy.bits .f32 = 32 ∨ (Rect.block (s := S65536x256) S2048x256.size (cc0_transform_7 i) (hinb0_7 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S2048x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S2048x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_2) S2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S65536x256, .f32⟩
  | .hbm, ⟨12, _⟩ => ⟨S256x256, .f32⟩
  | .hbm, ⟨13, _⟩ => ⟨S65536x256, .f32⟩
  | .hbm, ⟨14, _⟩ => ⟨S1x256, .f32⟩
  | .hbm, ⟨15, _⟩ => ⟨S65536x256, .f32⟩
  | .hbm, ⟨16, _⟩ => ⟨S65536x256, .f32⟩
  | .hbm, ⟨17, _⟩ => ⟨S65536x256, .f32⟩
  | .hbm, ⟨18, _⟩ => ⟨S65536x256, .f32⟩
  | .hbm, ⟨19, _⟩ => ⟨S_, .f32⟩
  | .hbm, ⟨20, _⟩ => ⟨S65536x256, .f32⟩
  | .hbm, ⟨21, _⟩ => ⟨S65536x256, .f32⟩
  | .hbm, ⟨22, _⟩ => ⟨S_, .f32⟩
  | .hbm, ⟨23, _⟩ => ⟨S65536x256, .f32⟩
  | .hbm, ⟨24, _⟩ => ⟨S65536x256, .f32⟩
  | .hbm, ⟨25, _⟩ => ⟨S256x256, .f32⟩
  | .hbm, ⟨26, _⟩ => ⟨S65536x256, .f32⟩
  | .hbm, ⟨27, _⟩ => ⟨S1x256, .f32⟩
  | .hbm, ⟨28, _⟩ => ⟨S65536x256, .f32⟩
  | .hbm, ⟨29, _⟩ => ⟨S65536x256, .f32⟩
  | .hbm, ⟨30, _⟩ => ⟨S65536x256, .f32⟩
  | .hbm, ⟨31, _⟩ => ⟨S256x256, .f32⟩
  | .hbm, ⟨32, _⟩ => ⟨S65536x256, .f32⟩
  | .hbm, ⟨33, _⟩ => ⟨S1x256, .f32⟩
  | .hbm, ⟨34, _⟩ => ⟨S65536x256, .f32⟩
  | .hbm, ⟨35, _⟩ => ⟨S65536x256, .f32⟩
  | .hbm, ⟨36, _⟩ => ⟨S65536x256, .f32⟩
  | .hbm, ⟨37, _⟩ => ⟨S65536x256, .f32⟩
  | .hbm, ⟨38, _⟩ => ⟨S_, .f32⟩
  | .hbm, ⟨39, _⟩ => ⟨S65536x256, .f32⟩
  | .hbm, ⟨40, _⟩ => ⟨S65536x256, .f32⟩
  | .hbm, ⟨41, _⟩ => ⟨S_, .f32⟩
  | .hbm, ⟨42, _⟩ => ⟨S65536x256, .f32⟩
  | .hbm, ⟨43, _⟩ => ⟨S65536x256, .f32⟩
  | .hbm, ⟨44, _⟩ => ⟨S65536x256, .f32⟩
  | .hbm, ⟨45, _⟩ => ⟨S65536x256, .f32⟩
  | .hbm, ⟨46, _⟩ => ⟨S_, .f32⟩
  | .hbm, ⟨47, _⟩ => ⟨S65536x256, .f32⟩
  | .hbm, ⟨48, _⟩ => ⟨S65536x256, .f32⟩
  | .hbm, ⟨49, _⟩ => ⟨S_, .f32⟩
  | .hbm, ⟨50, _⟩ => ⟨S65536x256, .f32⟩
  | .hbm, ⟨51, _⟩ => ⟨S65536x256, .f32⟩
  | .hbm, ⟨52, _⟩ => ⟨S65536x256, .f32⟩
  | .hbm, ⟨53, _⟩ => ⟨S65536x256, .f32⟩
  | .hbm, ⟨54, _⟩ => ⟨S65536x256, .f32⟩
  | .hbm, ⟨55, _⟩ => ⟨S256x256, .f32⟩
  | .hbm, ⟨56, _⟩ => ⟨S65536x256, .f32⟩
  | .hbm, ⟨57, _⟩ => ⟨S1x256, .f32⟩
  | .hbm, ⟨58, _⟩ => ⟨S65536x256, .f32⟩
  | .hbm, ⟨59, _⟩ => ⟨S65536x256, .f32⟩
  | .hbm, ⟨60, _⟩ => ⟨S65536x256, .f32⟩
  | .hbm, ⟨61, _⟩ => ⟨S65536x256, .f32⟩
  | .hbm, ⟨62, _⟩ => ⟨S_, .f32⟩
  | .hbm, ⟨63, _⟩ => ⟨S65536x256, .f32⟩
  | .hbm, ⟨64, _⟩ => ⟨S65536x256, .f32⟩
  | .hbm, ⟨65, _⟩ => ⟨S_, .f32⟩
  | .hbm, ⟨66, _⟩ => ⟨S65536x256, .f32⟩
  | .hbm, ⟨67, _⟩ => ⟨S65536x256, .f32⟩
  | .hbm, ⟨68, _⟩ => ⟨S65536x256, .f32⟩
  | .hbm, ⟨69, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  dot_S65536x256_S256x256_S65536x256_1_0_0_1_n_n_wf : DotDims.WF S65536x256 S256x256 S65536x256 [1] [0] [0] [1] [] []

variable [Facts₀]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.WordLaunchEntry.lean ====
/-
  @main of the fused LSTM-cell program up to its one launch, and what the launch finds.

  Eight host operations come first. The four gate matrices are transposed and laid side by side along
  the column axis into one 256 x 1024 matrix (columns 256 g .. 256 g + 255 are gate g's transposed
  weights), which is then narrowed to bf16; the four bias vectors are laid end to end into one vector of
  1024 entries, reshaped to one row. Each of these writes a buffer of its own, so every one of the eleven
  argument arrays is, when the launch starts, exactly what it was at the start (`entry_arg0` .. `entry_arg10`).

  The launch streams 2048-row blocks of the three batch arrays through the kernel, one block per grid
  point, and keeps the fused weight matrix and the bias row resident. `rowBlock` names the block of a
  window's array that grid point `t` works on. `unchanged_of_run` turns a run of the launch that ends
  with every window's array at the library's account of the write-backs, and every other buffer as the
  launch found it, into the statement that the eleven arguments end unchanged: the three batch inputs are
  only ever read by the launch, and the eight parameter arrays are no window of it at all.
-/
import proofs.«424195_j80693845557463_3_alg».proof.Proof.Gen.Kernel.Launch
import proofs.«424195_j80693845557463_3_alg».proof.Proof.Gen.Kernel.Skeleton
import proofs.«424195_j80693845557463_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the launch starts -/

/-- Core `c`'s buffers when the launch starts: the initial memory carried through the eight host
    operations (transposes, the two concatenations, the narrowing, the reshape). -/
abbrev entry (c : Dev nD) (b : Ref sig .tc) : Buf (Elt F) ((c : Thread nD τ).loc b) :=
  StableHlo.after hostOps0 (fun b => m (c, b)) b

/-- None of the eight host operations allocates. -/
theorem hostOps0_fresh : (hostOps0 : List (HloOp τ sig (Elt F))).Forall fun op => op.fresh = ∅ := by
  simp only [List.Forall]; repeat' constructor

/-- @main is the eight host operations followed by the launch. -/
theorem main_to_launch (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- A buffer that none of the eight host operations writes is, at the launch, what it was at the start.
    The written buffers are the four transposes, the two concatenations, the narrowed matrix and the
    reshaped row; `b` is told apart from each as a reference. -/
theorem entry_of_unwritten (c : Dev nD) (b : Ref sig .tc)
    (h0 : main_v0 ≠ b) (h1 : main_v1 ≠ b) (h2 : main_v2 ≠ b) (h3 : main_v3 ≠ b) (h4 : main_v4 ≠ b)
    (h5 : main_v5 ≠ b) (h6 : main_v6 ≠ b) (h7 : main_v7 ≠ b) :
    entry m c b = m ((c : Thread nD τ).loc b) :=
  StableHlo.after_of_forall_not_mem (b := Proc.devRef .tc b) _ _ (List.forall_iff_forall_mem.mp (by
    simp only [hostOps0, List.Forall, StableHlo.unary_writes, StableHlo.nary_writes, StableHlo.reshape_writes,
      Finset.mem_singleton]
    exact ⟨StableHlo.devRef_ne_of_ne h0.symm, StableHlo.devRef_ne_of_ne h1.symm, StableHlo.devRef_ne_of_ne h2.symm,
      StableHlo.devRef_ne_of_ne h3.symm, StableHlo.devRef_ne_of_ne h4.symm, StableHlo.devRef_ne_of_ne h5.symm,
      StableHlo.devRef_ne_of_ne h6.symm, StableHlo.devRef_ne_of_ne h7.symm⟩))

theorem entry_arg0 (c : Dev nD) : entry m c main_arg0 = m ((c : Thread nD τ).loc main_arg0) :=
  entry_of_unwritten m c main_arg0 (by decide) (by decide) (by decide) (by decide) (by decide) (by decide) (by decide) (by decide)
theorem entry_arg1 (c : Dev nD) : entry m c main_arg1 = m ((c : Thread nD τ).loc main_arg1) :=
  entry_of_unwritten m c main_arg1 (by decide) (by decide) (by decide) (by decide) (by decide) (by decide) (by decide) (by decide)
theorem entry_arg2 (c : Dev nD) : entry m c main_arg2 = m ((c : Thread nD τ).loc main_arg2) :=
  entry_of_unwritten m c main_arg2 (by decide) (by decide) (by decide) (by decide) (by decide) (by decide) (by decide) (by decide)
theorem entry_arg3 (c : Dev nD) : entry m c main_arg3 = m ((c : Thread nD τ).loc main_arg3) :=
  entry_of_unwritten m c main_arg3 (by decide) (by decide) (by decide) (by decide) (by decide) (by decide) (by decide) (by decide)
theorem entry_arg4 (c : Dev nD) : entry m c main_arg4 = m ((c : Thread nD τ).loc main_arg4) :=
  entry_of_unwritten m c main_arg4 (by decide) (by decide) (by decide) (by decide) (by decide) (by decide) (by decide) (by decide)
theorem entry_arg5 (c : Dev nD) : entry m c main_arg5 = m ((c : Thread nD τ).loc main_arg5) :=
  entry_of_unwritten m c main_arg5 (by decide) (by decide) (by decide) (by decide) (by decide) (by decide) (by decide) (by decide)
theorem entry_arg6 (c : Dev nD) : entry m c main_arg6 = m ((c : Thread nD τ).loc main_arg6) :=
  entry_of_unwritten m c main_arg6 (by decide) (by decide) (by decide) (by decide) (by decide) (by decide) (by decide) (by decide)
theorem entry_arg7 (c : Dev nD) : entry m c main_arg7 = m ((c : Thread nD τ).loc main_arg7) :=
  entry_of_unwritten m c main_arg7 (by decide) (by decide) (by decide) (by decide) (by decide) (by decide) (by decide) (by decide)
theorem entry_arg8 (c : Dev nD) : entry m c main_arg8 = m ((c : Thread nD τ).loc main_arg8) :=
  entry_of_unwritten m c main_arg8 (by decide) (by decide) (by decide) (by decide) (by decide) (by decide) (by decide) (by decide)
theorem entry_arg9 (c : Dev nD) : entry m c main_arg9 = m ((c : Thread nD τ).loc main_arg9) :=
  entry_of_unwritten m c main_arg9 (by decide) (by decide) (by decide) (by decide) (by decide) (by decide) (by decide) (by decide)
theorem entry_arg10 (c : Dev nD) : entry m c main_arg10 = m ((c : Thread nD τ).loc main_arg10) :=
  entry_of_unwritten m c main_arg10 (by decide) (by decide) (by decide) (by decide) (by decide) (by decide) (by decide) (by decide)

/-! ## The block a grid point works on -/

/-- Window `w`'s block at grid point `t`, read off its array as the launch finds it: for the three batch
    windows rows 2048 t .. 2048 t + 2047, for the weight matrix and the bias row the whole array. -/
def rowBlock (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-! An input window whose body leaves its block in place holds that block at every grid point, whether the
point fetched it or not: a window not fetched has not moved (the weight matrix and the bias row are fetched
once, at the first point, and sit at block index (0, 0) throughout). One statement per input window. -/

/-- The first batch input's staging buffer holds its block at every grid point, fetched there or not. -/
theorem before_input0_of {c : Dev nD} (dat : Dat τ (Elt F) Unit ℕ (UR sig nD τ) ℕ cfg0 c)
    (hA : dat.A 0 = entry m c (Pipeline.arrRef spec0 0))
    (hafter : ∀ t, dat.after 0 t = rowBlock m c 0 t) (t : Fin cfg0.N) (d) : dat.before 0 t d = rowBlock m c 0 t :=
  (dat.before_in_eq_fetched 0 rfl (fun _ => rfl) (fun _ _ _ => rfl)
      (fun t => by rw [hafter]; unfold Dat.blockOf rowBlock; rw [hA]; try rfl) t d).trans
    (by unfold Dat.fetched Dat.blockOf rowBlock; rw [hA]; try rfl)
/-- The second batch input's staging buffer holds its block at every grid point, fetched there or not. -/
theorem before_input1_of {c : Dev nD} (dat : Dat τ (Elt F) Unit ℕ (UR sig nD τ) ℕ cfg0 c)
    (hA : dat.A 1 = entry m c (Pipeline.arrRef spec0 1))
    (hafter : ∀ t, dat.after 1 t = rowBlock m c 1 t) (t : Fin cfg0.N) (d) : dat.before 1 t d = rowBlock m c 1 t :=
  (dat.before_in_eq_fetched 1 rfl (fun _ => rfl) (fun _ _ _ => rfl)
      (fun t => by rw [hafter]; unfold Dat.blockOf rowBlock; rw [hA]; try rfl) t d).trans
    (by unfold Dat.fetched Dat.blockOf rowBlock; rw [hA]; try rfl)
/-- The cell-state input's staging buffer holds its block at every grid point, fetched there or not. -/
theorem before_input2_of {c : Dev nD} (dat : Dat τ (Elt F) Unit ℕ (UR sig nD τ) ℕ cfg0 c)
    (hA : dat.A 2 = entry m c (Pipeline.arrRef spec0 2))
    (hafter : ∀ t, dat.after 2 t = rowBlock m c 2 t) (t : Fin cfg0.N) (d) : dat.before 2 t d = rowBlock m c 2 t :=
  (dat.before_in_eq_fetched 2 rfl (fun _ => rfl) (fun _ _ _ => rfl)
      (fun t => by rw [hafter]; unfold Dat.blockOf rowBlock; rw [hA]; try rfl) t d).trans
    (by unfold Dat.fetched Dat.blockOf rowBlock; rw [hA]; try rfl)
/-- The fused weight matrix's staging buffer holds its block at every grid point, fetched there or not. -/
theorem before_input3_of {c : Dev nD} (dat : Dat τ (Elt F) Unit ℕ (UR sig nD τ) ℕ cfg0 c)
    (hA : dat.A 3 = entry m c (Pipeline.arrRef spec0 3))
    (hafter : ∀ t, dat.after 3 t = rowBlock m c 3 t) (t : Fin cfg0.N) (d) : dat.before 3 t d = rowBlock m c 3 t :=
  (dat.before_in_eq_fetched 3 rfl (fun _ => rfl) (fun _ _ _ => rfl)
      (fun t => by rw [hafter]; unfold Dat.blockOf rowBlock; rw [hA]; try rfl) t d).trans
    (by unfold Dat.fetched Dat.blockOf rowBlock; rw [hA]; try rfl)
/-- The fused bias row's staging buffer holds its block at every grid point, fetched there or not. -/
theorem before_input4_of {c : Dev nD} (dat : Dat τ (Elt F) Unit ℕ (UR sig nD τ) ℕ cfg0 c)
    (hA : dat.A 4 = entry m c (Pipeline.arrRef spec0 4))
    (hafter : ∀ t, dat.after 4 t = rowBlock m c 4 t) (t : Fin cfg0.N) (d) : dat.before 4 t d = rowBlock m c 4 t :=
  (dat.before_in_eq_fetched 4 rfl (fun _ => rfl) (fun _ _ _ => rfl)
      (fun t => by rw [hafter]; unfold Dat.blockOf rowBlock; rw [hA]; try rfl) t d).trans
    (by unfold Dat.fetched Dat.blockOf rowBlock; rw [hA]; try rfl)

/-! ## The arguments end unchanged -/

/-- In a final state where every window's array is at the library's account of its write-backs and every
    other unscoped buffer is as the launch found it, the eleven arguments are what they were at the start.
    Windows 0, 1, 2 are inputs, never written back; arguments 3 .. 10 are no window's array. -/
theorem kept_of_post (dats : (p : Fin 1) → (c : Dev nD) → Dat τ (Elt F) Unit ℕ (UR sig nD τ) ℕ (cfgs p) c)
    (hA : ∀ c w, (dats 0 c).A w = entry m c (Pipeline.arrRef spec0 w))
    (r : PUnit × MemSt nD τ sig (Elt F)) (h : Pipeline.FramePost cfgs dats 0 (entry m) r) (c : Dev nD) :
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10) :=
  ⟨((h c).1 0).trans (((dats 0 c).arrAt_in 0 rfl _).trans ((hA c 0).trans (entry_arg0 m c))),
   ((h c).1 1).trans (((dats 0 c).arrAt_in 1 rfl _).trans ((hA c 1).trans (entry_arg1 m c))),
   ((h c).1 2).trans (((dats 0 c).arrAt_in 2 rfl _).trans ((hA c 2).trans (entry_arg2 m c))),
   ((h c).2 main_arg3 (Pipeline.mem_restRefs_of main_arg3 (by decide) (by decide))).trans (entry_arg3 m c),
   ((h c).2 main_arg4 (Pipeline.mem_restRefs_of main_arg4 (by decide) (by decide))).trans (entry_arg4 m c),
   ((h c).2 main_arg5 (Pipeline.mem_restRefs_of main_arg5 (by decide) (by decide))).trans (entry_arg5 m c),
   ((h c).2 main_arg6 (Pipeline.mem_restRefs_of main_arg6 (by decide) (by decide))).trans (entry_arg6 m c),
   ((h c).2 main_arg7 (Pipeline.mem_restRefs_of main_arg7 (by decide) (by decide))).trans (entry_arg7 m c),
   ((h c).2 main_arg8 (Pipeline.mem_restRefs_of main_arg8 (by decide) (by decide))).trans (entry_arg8 m c),
   ((h c).2 main_arg9 (Pipeline.mem_restRefs_of main_arg9 (by decide) (by decide))).trans (entry_arg9 m c),
   ((h c).2 main_arg10 (Pipeline.mem_restRefs_of main_arg10 (by decide) (by decide))).trans (entry_arg10 m c)⟩

/-- So a run of @main to such a state leaves the eleven arguments unchanged. -/
theorem unchanged_of_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)) :=
  (θ_run defs _ _).mono (fun r h c => kept_of_post m dats hA r h c) h

end Cert.Kernel.Cell

end
-- ==== Proof.WordCellBody.lean ====
/-
  One grid point of the fused LSTM-cell kernel, and the launch over all 32 of them.

  At a grid point the body reads the point's 2048-row blocks of the two batch inputs and of the cell
  state, the resident fused weight matrix and bias row, and overwrites the whole of its three output
  blocks: the output gate, the new hidden state and the new cell state, each one pure function of the
  five things read (`outGateBlock`, `hiddenBlock`, `cellBlock`: the skeleton's payloads 3, 4 and 2).
  It also loads each output block just before overwriting it; nothing is done with what is loaded, so
  the output buffers may hold anything when the body starts.

  `cell_body` is the body's triple: from the five inputs at known contents and the three outputs at any
  contents, to the inputs as they were and the outputs at those three functions. `grid` is the pipeline's
  proof data built from it, `launch_run` the run of the whole of @main, and `args_unchanged` the
  statement that the eleven argument arrays end as they began.
-/
import proofs.«424195_j80693845557463_3_alg».proof.Proof.Gen.Kernel.Launch
import proofs.«424195_j80693845557463_3_alg».proof.Proof.Gen.Kernel.Skeleton
import proofs.«424195_j80693845557463_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each is the whole of its buffer -/

abbrev wholeBatch : Rect S2048x256 := Rect.unit (s := S2048x256) ![0, 0] S2048x256.size inb_S2048x256_S2048x256_0_0
abbrev wholeWeights : Rect S256x1024 := Rect.unit (s := S256x1024) ![0, 0] S256x1024.size inb_S256x1024_S256x1024_0_0
abbrev wholeBias : Rect S1x1024 := Rect.unit (s := S1x1024) ![0, 0] S1x1024.size inb_S1x1024_S1x1024_0_0

/-! ## What the body leaves in each output block -/

/-- The output-gate block: the logistic of the fourth quarter of the fused pre-activations. -/
def outGateBlock (x h : Vec F S2048x256 .f32) (w : Vec F S256x1024 .bf16) (b : Vec F S1x1024 .f32) : Vec F S2048x256 .f32 :=
  View.canon [⟨wholeBatch, k0_pay3 (View.ld x wholeBatch) (View.ld h wholeBatch) (View.ld w wholeWeights) (View.ld b wholeBias)⟩]

/-- The new hidden-state block: the output gate times the hyperbolic tangent of the new cell state. -/
def hiddenBlock (x h : Vec F S2048x256 .f32) (w : Vec F S256x1024 .bf16) (b : Vec F S1x1024 .f32) (cell : Vec F S2048x256 .f32) : Vec F S2048x256 .f32 :=
  View.canon [⟨wholeBatch, k0_pay4 (View.ld x wholeBatch) (View.ld h wholeBatch) (View.ld w wholeWeights) (View.ld b wholeBias) (View.ld cell wholeBatch)⟩]

/-- The new cell-state block: the old cell state times the forget gate, plus the candidate times the
    (twice squashed) input gate. -/
def cellBlock (x h : Vec F S2048x256 .f32) (w : Vec F S256x1024 .bf16) (b : Vec F S1x1024 .f32) (cell : Vec F S2048x256 .f32) : Vec F S2048x256 .f32 :=
  View.canon [⟨wholeBatch, k0_pay2 (View.ld x wholeBatch) (View.ld h wholeBatch) (View.ld w wholeWeights) (View.ld b wholeBias) (View.ld cell wholeBatch)⟩]

/-- One store of the whole block covers the block. -/
theorem whole_covers (p0 : Vec F S2048x256 .f32) (y : S2048x256.Idx) :
    ∃ pc ∈ ([⟨wholeBatch, p0⟩] : List (View.Piece (Elt F) S2048x256 .f32)), y ∈ pc.1.set :=
  View.cover_of_tiled [⟨wholeBatch, p0⟩] S2048x256.size (by rfl) y

/-! ## The body's triple -/

set_option maxHeartbeats 1000000 in
/-- The body on whole staging buffers: the two batch inputs, the cell state, the weights and the bias at
    known contents, the three outputs at anything. It returns with the inputs as they were and the outputs
    at `outGateBlock`, `hiddenBlock`, `cellBlock` of them. -/
theorem cell_body (c : Dev nD) (E : Set ℕ) (i : grid0.Coords)
    (arg1 : Memref sig .tc .vmem S2048x256 .f32) (harg1 : arg1.IsWhole) (arg2 : Memref sig .tc .vmem S2048x256 .f32) (harg2 : arg2.IsWhole)
    (arg3 : Memref sig .tc .vmem S2048x256 .f32) (harg3 : arg3.IsWhole) (arg4 : Memref sig .tc .vmem S256x1024 .bf16) (harg4 : arg4.IsWhole)
    (arg5 : Memref sig .tc .vmem S1x1024 .f32) (harg5 : arg5.IsWhole) (arg6 : Memref sig .tc .vmem S2048x256 .f32) (harg6 : arg6.IsWhole)
    (arg7 : Memref sig .tc .vmem S2048x256 .f32) (harg7 : arg7.IsWhole) (arg8 : Memref sig .tc .vmem S2048x256 .f32) (harg8 : arg8.IsWhole)
    (x h cell : Vec F S2048x256 .f32) (w : Vec F S256x1024 .bf16) (b : Vec F S1x1024 .f32) (K : PUnit → sProp 𝕄) :
    iprop(owns (c : Thread nD τ) arg1 fullShare x ∗ owns (c : Thread nD τ) arg2 fullShare h ∗ owns (c : Thread nD τ) arg3 fullShare cell
        ∗ owns (c : Thread nD τ) arg4 fullShare w ∗ owns (c : Thread nD τ) arg5 fullShare b
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cell
            ∗ owns (c : Thread nD τ) arg4 fullShare w ∗ owns (c : Thread nD τ) arg5 fullShare b
            ∗ owns (c : Thread nD τ) arg6 fullShare (outGateBlock x h w b)
            ∗ owns (c : Thread nD τ) arg7 fullShare (hiddenBlock x h w b cell)
            ∗ owns (c : Thread nD τ) arg8 fullShare (cellBlock x h w b cell)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (whole_covers _)
  isplitl [H6]
  · iexists _; isplitr
    swap; · iexact H6
    ipureintro
    exact View.read_writes_eq_canon _ _ _ (whole_covers _)
  iexists _; isplitr
  swap; · iexact H7
  ipureintro
  exact View.read_writes_eq_canon _ _ _ (whole_covers _)

end Cert.Kernel.Cell

end
-- ==== Proof.WordGrid.lean ====
/-
  The launch over its 32 grid points: the pipeline's proof data, the obligation the body owes at each
  point, the run of the whole of @main, and what it leaves.

  After the body at point `t`, each of the five input windows still holds its block at `t` (the body only
  reads them) and the three output windows hold the output gate, the new hidden state and the new cell
  state computed from those blocks (`outGateBlock`, `hiddenBlock`, `cellBlock`). Nothing else of the
  core is touched, and the kernel signals no one. The pipeline writes each output block back to rows
  2048 t .. 2048 t + 2047 of its array; the library's `arrAt` is the array after those write-backs.
-/
import proofs.«424195_j80693845557463_3_alg».proof.Proof.WordLaunchEntry
import proofs.«424195_j80693845557463_3_alg».proof.Proof.WordCellBody

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The one pipeline's proof data on core `c`: the arrays as the launch finds them; after the body at
    point `t` each input window at its block and each output window at its function of the input blocks;
    the invariant the scoped rest and the generator register, untouched; nothing owed; full shares. -/
def grid (_ : Fin 1) (c : Dev nD) : Dat τ (Elt F) Unit ℕ (UR sig nD τ) ℕ cfg0 c where
  A w := entry m c (Pipeline.arrRef spec0 w)
  after w t := match w with
    | ⟨0, _⟩ => rowBlock m c 0 t
    | ⟨1, _⟩ => rowBlock m c 1 t
    | ⟨2, _⟩ => rowBlock m c 2 t
    | ⟨3, _⟩ => rowBlock m c 3 t
    | ⟨4, _⟩ => rowBlock m c 4 t
    | ⟨5, _⟩ => outGateBlock (rowBlock m c 0 t) (rowBlock m c 1 t) (rowBlock m c 3 t) (rowBlock m c 4 t)
    | ⟨6, _⟩ => hiddenBlock (rowBlock m c 0 t) (rowBlock m c 1 t) (rowBlock m c 3 t) (rowBlock m c 4 t) (rowBlock m c 2 t)
    | ⟨7, _⟩ => cellBlock (rowBlock m c 0 t) (rowBlock m c 1 t) (rowBlock m c 3 t) (rowBlock m c 4 t) (rowBlock m c 2 t)
  Φ _ := Pipeline.ΦA spec0 c
  q _ := fullShare
  owed _ := 0

/-- The proof data's arrays are the contents at the launch (projected, never unfolded). -/
theorem grid_A (c : Dev nD) (w : Fin cfg0.W) : (grid m 0 c).A w = entry m c (Pipeline.arrRef spec0 w) := by
  dsimp only [grid]

theorem after_in0 (c : Dev nD) (t : Fin cfg0.N) : (grid m 0 c).after 0 t = rowBlock m c 0 t := by dsimp only [grid]
theorem after_in1 (c : Dev nD) (t : Fin cfg0.N) : (grid m 0 c).after 1 t = rowBlock m c 1 t := by dsimp only [grid]
theorem after_in2 (c : Dev nD) (t : Fin cfg0.N) : (grid m 0 c).after 2 t = rowBlock m c 2 t := by dsimp only [grid]
theorem after_in3 (c : Dev nD) (t : Fin cfg0.N) : (grid m 0 c).after 3 t = rowBlock m c 3 t := by dsimp only [grid]
theorem after_in4 (c : Dev nD) (t : Fin cfg0.N) : (grid m 0 c).after 4 t = rowBlock m c 4 t := by dsimp only [grid]
theorem after_outGate (c : Dev nD) (t : Fin cfg0.N) : (grid m 0 c).after 5 t
    = outGateBlock (rowBlock m c 0 t) (rowBlock m c 1 t) (rowBlock m c 3 t) (rowBlock m c 4 t) := by dsimp only [grid]
theorem after_hidden (c : Dev nD) (t : Fin cfg0.N) : (grid m 0 c).after 6 t
    = hiddenBlock (rowBlock m c 0 t) (rowBlock m c 1 t) (rowBlock m c 3 t) (rowBlock m c 4 t) (rowBlock m c 2 t) := by dsimp only [grid]
theorem after_cell (c : Dev nD) (t : Fin cfg0.N) : (grid m 0 c).after 7 t
    = cellBlock (rowBlock m c 0 t) (rowBlock m c 1 t) (rowBlock m c 3 t) (rowBlock m c 4 t) (rowBlock m c 2 t) := by dsimp only [grid]

/-- Each input window's current staging buffer holds its block at every point. -/
theorem before_in0 (c : Dev nD) (t : Fin cfg0.N) (d) : (grid m 0 c).before 0 t d = rowBlock m c 0 t :=
  before_input0_of m (grid m 0 c) (grid_A m c 0) (after_in0 m c) t d
theorem before_in1 (c : Dev nD) (t : Fin cfg0.N) (d) : (grid m 0 c).before 1 t d = rowBlock m c 1 t :=
  before_input1_of m (grid m 0 c) (grid_A m c 1) (after_in1 m c) t d
theorem before_in2 (c : Dev nD) (t : Fin cfg0.N) (d) : (grid m 0 c).before 2 t d = rowBlock m c 2 t :=
  before_input2_of m (grid m 0 c) (grid_A m c 2) (after_in2 m c) t d
theorem before_in3 (c : Dev nD) (t : Fin cfg0.N) (d) : (grid m 0 c).before 3 t d = rowBlock m c 3 t :=
  before_input3_of m (grid m 0 c) (grid_A m c 3) (after_in3 m c) t d
theorem before_in4 (c : Dev nD) (t : Fin cfg0.N) (d) : (grid m 0 c).before 4 t d = rowBlock m c 4 t :=
  before_input4_of m (grid m 0 c) (grid_A m c 4) (after_in4 m c) t d

/-! ## The body's obligation at a grid point -/

/-- What the body is called with at point `t`, the eight windows one by one, -/
def pointPre (c : Dev nD) (t : Fin cfg0.N) : sProp 𝕄 :=
  iprop((grid m 0 c).Φ t.castSucc ∗ (grid m 0 c).owesAt () t.castSucc
    ∗ (∃ d, owns (c : Thread nD τ) (st0_0 t) fullShare ((grid m 0 c).before 0 t d))
    ∗ (∃ d, owns (c : Thread nD τ) (st0_1 t) fullShare ((grid m 0 c).before 1 t d))
    ∗ (∃ d, owns (c : Thread nD τ) (st0_2 t) fullShare ((grid m 0 c).before 2 t d))
    ∗ (∃ d, owns (c : Thread nD τ) (st0_3 t) fullShare ((grid m 0 c).before 3 t d))
    ∗ (∃ d, owns (c : Thread nD τ) (st0_4 t) fullShare ((grid m 0 c).before 4 t d))
    ∗ (∃ d, owns (c : Thread nD τ) (st0_5 t) fullShare ((grid m 0 c).before 5 t d))
    ∗ (∃ d, owns (c : Thread nD τ) (st0_6 t) fullShare ((grid m 0 c).before 6 t d))
    ∗ (∃ d, owns (c : Thread nD τ) (st0_7 t) fullShare ((grid m 0 c).before 7 t d)))

/-- and what it returns. -/
def pointPost (c : Dev nD) (t : Fin cfg0.N) : sProp 𝕄 :=
  iprop((grid m 0 c).Φ t.succ ∗ (grid m 0 c).owesAt () t.succ
    ∗ owns (c : Thread nD τ) (st0_0 t) fullShare ((grid m 0 c).after 0 t)
    ∗ owns (c : Thread nD τ) (st0_1 t) fullShare ((grid m 0 c).after 1 t)
    ∗ owns (c : Thread nD τ) (st0_2 t) fullShare ((grid m 0 c).after 2 t)
    ∗ owns (c : Thread nD τ) (st0_3 t) fullShare ((grid m 0 c).after 3 t)
    ∗ owns (c : Thread nD τ) (st0_4 t) fullShare ((grid m 0 c).after 4 t)
    ∗ owns (c : Thread nD τ) (st0_5 t) fullShare ((grid m 0 c).after 5 t)
    ∗ owns (c : Thread nD τ) (st0_6 t) fullShare ((grid m 0 c).after 6 t)
    ∗ owns (c : Thread nD τ) (st0_7 t) fullShare ((grid m 0 c).after 7 t))

/-- The body at any point: the input buffers hold their blocks, so the body's triple applies; the invariant
    and the core's dues pass through unread. -/
theorem point_run (c : Dev nD) (t : Fin cfg0.N) :
    pointPre m c t ⊢ wp frame (wpE (defs₀ (F := F)) Variants.none c none) Set.univ (bodyAt0 t) (fun _ => pointPost m c t) := by
  unfold pointPre pointPost bodyAt0
  simp only [before_in0, before_in1, before_in2, before_in3, before_in4]
  rw [show (grid m 0 c).Φ t.succ = (grid m 0 c).Φ t.castSucc from rfl,
    show (grid m 0 c).owesAt () t.succ = (grid m 0 c).owesAt () t.castSucc from rfl,
    after_in0, after_in1, after_in2, after_in3, after_in4, after_outGate, after_hidden, after_cell]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (cell_body c Set.univ (grid0.coords t) _ _ _ _ _ _ _ _ _ _ _ _ _ _ _ _
    (rowBlock m c 0 t) (rowBlock m c 1 t) (rowBlock m c 2 t) (rowBlock m c 3 t) (rowBlock m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (grid (F := F) m 0 c) (defs₀ (F := F)) Variants.none () Set.univ := fun t => by
  rw [bigSep_W0, bigSep_W0]
  exact point_run m c t

/-! ## The run -/

set_option backward.isDefEq.respectTransparency.types false in
/-- Every weakly fair execution of @main terminates, and every final state has each window's array at the
    library's account of the write-backs and every other unscoped buffer as the launch found it. -/
theorem launch_run : θ_run defs (onTc (τ := τ) (main (F := F))) (s₀ m ρ) (Pipeline.FramePost cfgs (grid m) 0 (entry m)) :=
  Pipeline.θ_run_frame cfgs (grid m) (0 : Fin 1) launch0 defs₀ Variants.none m ρ main
    (hbody := fun c => (body_obligation m c).loose) (hshare := fun c => (grid m 0 c).share_full fun _ => rfl)
    (howed := fun _ _ => rfl) (V := entry m) (hmain := main_to_launch m Variants.none) (hA := grid_A m) (hΦ := fun _ _ => rfl)

/-- The eleven argument arrays end as they began. -/
theorem args_unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  unchanged_of_run m ρ (grid m) (grid_A m) (launch_run m ρ)

end Cert.Kernel.Cell

end
-- ==== Proof.IdealLaunchEntry.lean ====
/-
  @main of the fused LSTM-cell program up to its one launch, and what the launch finds.

  Eight host operations come first. The four gate matrices are transposed and laid side by side along
  the column axis into one 256 x 1024 matrix (columns 256 g .. 256 g + 255 are gate g's transposed
  weights), which is then narrowed to bf16; the four bias vectors are laid end to end into one vector of
  1024 entries, reshaped to one row. Each of these writes a buffer of its own, so every one of the eleven
  argument arrays is, when the launch starts, exactly what it was at the start (`entry_arg0` .. `entry_arg10`).

  The launch streams 2048-row blocks of the three batch arrays through the kernel, one block per grid
  point, and keeps the fused weight matrix and the bias row resident. `rowBlock` names the block of a
  window's array that grid point `t` works on. `unchanged_of_run` turns a run of the launch that ends
  with every window's array at the library's account of the write-backs, and every other buffer as the
  launch found it, into the statement that the eleven arguments end unchanged: the three batch inputs are
  only ever read by the launch, and the eight parameter arrays are no window of it at all.
-/
import proofs.«424195_j80693845557463_3_alg».proof.Proof.Gen.KernelIdeal.Launch
import proofs.«424195_j80693845557463_3_alg».proof.Proof.Gen.KernelIdeal.Skeleton
import proofs.«424195_j80693845557463_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the launch starts -/

/-- Core `c`'s buffers when the launch starts: the initial memory carried through the eight host
    operations (transposes, the two concatenations, the narrowing, the reshape). -/
abbrev entry (c : Dev nD) (b : Ref sig .tc) : Buf (Elt F) ((c : Thread nD τ).loc b) :=
  StableHlo.after hostOps0 (fun b => m (c, b)) b

/-- None of the eight host operations allocates. -/
theorem hostOps0_fresh : (hostOps0 : List (HloOp τ sig (Elt F))).Forall fun op => op.fresh = ∅ := by
  simp only [List.Forall]; repeat' constructor

/-- @main is the eight host operations followed by the launch. -/
theorem main_to_launch (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- A buffer that none of the eight host operations writes is, at the launch, what it was at the start.
    The written buffers are the four transposes, the two concatenations, the narrowed matrix and the
    reshaped row; `b` is told apart from each as a reference. -/
theorem entry_of_unwritten (c : Dev nD) (b : Ref sig .tc)
    (h0 : main_v0 ≠ b) (h1 : main_v1 ≠ b) (h2 : main_v2 ≠ b) (h3 : main_v3 ≠ b) (h4 : main_v4 ≠ b)
    (h5 : main_v5 ≠ b) (h6 : main_v6 ≠ b) (h7 : main_v7 ≠ b) :
    entry m c b = m ((c : Thread nD τ).loc b) :=
  StableHlo.after_of_forall_not_mem (b := Proc.devRef .tc b) _ _ (List.forall_iff_forall_mem.mp (by
    simp only [hostOps0, List.Forall, StableHlo.unary_writes, StableHlo.nary_writes, StableHlo.reshape_writes,
      Finset.mem_singleton]
    exact ⟨StableHlo.devRef_ne_of_ne h0.symm, StableHlo.devRef_ne_of_ne h1.symm, StableHlo.devRef_ne_of_ne h2.symm,
      StableHlo.devRef_ne_of_ne h3.symm, StableHlo.devRef_ne_of_ne h4.symm, StableHlo.devRef_ne_of_ne h5.symm,
      StableHlo.devRef_ne_of_ne h6.symm, StableHlo.devRef_ne_of_ne h7.symm⟩))

theorem entry_arg0 (c : Dev nD) : entry m c main_arg0 = m ((c : Thread nD τ).loc main_arg0) :=
  entry_of_unwritten m c main_arg0 (by decide) (by decide) (by decide) (by decide) (by decide) (by decide) (by decide) (by decide)
theorem entry_arg1 (c : Dev nD) : entry m c main_arg1 = m ((c : Thread nD τ).loc main_arg1) :=
  entry_of_unwritten m c main_arg1 (by decide) (by decide) (by decide) (by decide) (by decide) (by decide) (by decide) (by decide)
theorem entry_arg2 (c : Dev nD) : entry m c main_arg2 = m ((c : Thread nD τ).loc main_arg2) :=
  entry_of_unwritten m c main_arg2 (by decide) (by decide) (by decide) (by decide) (by decide) (by decide) (by decide) (by decide)
theorem entry_arg3 (c : Dev nD) : entry m c main_arg3 = m ((c : Thread nD τ).loc main_arg3) :=
  entry_of_unwritten m c main_arg3 (by decide) (by decide) (by decide) (by decide) (by decide) (by decide) (by decide) (by decide)
theorem entry_arg4 (c : Dev nD) : entry m c main_arg4 = m ((c : Thread nD τ).loc main_arg4) :=
  entry_of_unwritten m c main_arg4 (by decide) (by decide) (by decide) (by decide) (by decide) (by decide) (by decide) (by decide)
theorem entry_arg5 (c : Dev nD) : entry m c main_arg5 = m ((c : Thread nD τ).loc main_arg5) :=
  entry_of_unwritten m c main_arg5 (by decide) (by decide) (by decide) (by decide) (by decide) (by decide) (by decide) (by decide)
theorem entry_arg6 (c : Dev nD) : entry m c main_arg6 = m ((c : Thread nD τ).loc main_arg6) :=
  entry_of_unwritten m c main_arg6 (by decide) (by decide) (by decide) (by decide) (by decide) (by decide) (by decide) (by decide)
theorem entry_arg7 (c : Dev nD) : entry m c main_arg7 = m ((c : Thread nD τ).loc main_arg7) :=
  entry_of_unwritten m c main_arg7 (by decide) (by decide) (by decide) (by decide) (by decide) (by decide) (by decide) (by decide)
theorem entry_arg8 (c : Dev nD) : entry m c main_arg8 = m ((c : Thread nD τ).loc main_arg8) :=
  entry_of_unwritten m c main_arg8 (by decide) (by decide) (by decide) (by decide) (by decide) (by decide) (by decide) (by decide)
theorem entry_arg9 (c : Dev nD) : entry m c main_arg9 = m ((c : Thread nD τ).loc main_arg9) :=
  entry_of_unwritten m c main_arg9 (by decide) (by decide) (by decide) (by decide) (by decide) (by decide) (by decide) (by decide)
theorem entry_arg10 (c : Dev nD) : entry m c main_arg10 = m ((c : Thread nD τ).loc main_arg10) :=
  entry_of_unwritten m c main_arg10 (by decide) (by decide) (by decide) (by decide) (by decide) (by decide) (by decide) (by decide)

/-! ## The block a grid point works on -/

/-- Window `w`'s block at grid point `t`, read off its array as the launch finds it: for the three batch
    windows rows 2048 t .. 2048 t + 2047, for the weight matrix and the bias row the whole array. -/
def rowBlock (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-! An input window whose body leaves its block in place holds that block at every grid point, whether the
point fetched it or not: a window not fetched has not moved (the weight matrix and the bias row are fetched
once, at the first point, and sit at block index (0, 0) throughout). One statement per input window. -/

/-- The first batch input's staging buffer holds its block at every grid point, fetched there or not. -/
theorem before_input0_of {c : Dev nD} (dat : Dat τ (Elt F) Unit ℕ (UR sig nD τ) ℕ cfg0 c)
    (hA : dat.A 0 = entry m c (Pipeline.arrRef spec0 0))
    (hafter : ∀ t, dat.after 0 t = rowBlock m c 0 t) (t : Fin cfg0.N) (d) : dat.before 0 t d = rowBlock m c 0 t :=
  (dat.before_in_eq_fetched 0 rfl (fun _ => rfl) (fun _ _ _ => rfl)
      (fun t => by rw [hafter]; unfold Dat.blockOf rowBlock; rw [hA]; try rfl) t d).trans
    (by unfold Dat.fetched Dat.blockOf rowBlock; rw [hA]; try rfl)
/-- The second batch input's staging buffer holds its block at every grid point, fetched there or not. -/
theorem before_input1_of {c : Dev nD} (dat : Dat τ (Elt F) Unit ℕ (UR sig nD τ) ℕ cfg0 c)
    (hA : dat.A 1 = entry m c (Pipeline.arrRef spec0 1))
    (hafter : ∀ t, dat.after 1 t = rowBlock m c 1 t) (t : Fin cfg0.N) (d) : dat.before 1 t d = rowBlock m c 1 t :=
  (dat.before_in_eq_fetched 1 rfl (fun _ => rfl) (fun _ _ _ => rfl)
      (fun t => by rw [hafter]; unfold Dat.blockOf rowBlock; rw [hA]; try rfl) t d).trans
    (by unfold Dat.fetched Dat.blockOf rowBlock; rw [hA]; try rfl)
/-- The cell-state input's staging buffer holds its block at every grid point, fetched there or not. -/
theorem before_input2_of {c : Dev nD} (dat : Dat τ (Elt F) Unit ℕ (UR sig nD τ) ℕ cfg0 c)
    (hA : dat.A 2 = entry m c (Pipeline.arrRef spec0 2))
    (hafter : ∀ t, dat.after 2 t = rowBlock m c 2 t) (t : Fin cfg0.N) (d) : dat.before 2 t d = rowBlock m c 2 t :=
  (dat.before_in_eq_fetched 2 rfl (fun _ => rfl) (fun _ _ _ => rfl)
      (fun t => by rw [hafter]; unfold Dat.blockOf rowBlock; rw [hA]; try rfl) t d).trans
    (by unfold Dat.fetched Dat.blockOf rowBlock; rw [hA]; try rfl)
/-- The fused weight matrix's staging buffer holds its block at every grid point, fetched there or not. -/
theorem before_input3_of {c : Dev nD} (dat : Dat τ (Elt F) Unit ℕ (UR sig nD τ) ℕ cfg0 c)
    (hA : dat.A 3 = entry m c (Pipeline.arrRef spec0 3))
    (hafter : ∀ t, dat.after 3 t = rowBlock m c 3 t) (t : Fin cfg0.N) (d) : dat.before 3 t d = rowBlock m c 3 t :=
  (dat.before_in_eq_fetched 3 rfl (fun _ => rfl) (fun _ _ _ => rfl)
      (fun t => by rw [hafter]; unfold Dat.blockOf rowBlock; rw [hA]; try rfl) t d).trans
    (by unfold Dat.fetched Dat.blockOf rowBlock; rw [hA]; try rfl)
/-- The fused bias row's staging buffer holds its block at every grid point, fetched there or not. -/
theorem before_input4_of {c : Dev nD} (dat : Dat τ (Elt F) Unit ℕ (UR sig nD τ) ℕ cfg0 c)
    (hA : dat.A 4 = entry m c (Pipeline.arrRef spec0 4))
    (hafter : ∀ t, dat.after 4 t = rowBlock m c 4 t) (t : Fin cfg0.N) (d) : dat.before 4 t d = rowBlock m c 4 t :=
  (dat.before_in_eq_fetched 4 rfl (fun _ => rfl) (fun _ _ _ => rfl)
      (fun t => by rw [hafter]; unfold Dat.blockOf rowBlock; rw [hA]; try rfl) t d).trans
    (by unfold Dat.fetched Dat.blockOf rowBlock; rw [hA]; try rfl)

/-! ## The arguments end unchanged -/

/-- In a final state where every window's array is at the library's account of its write-backs and every
    other unscoped buffer is as the launch found it, the eleven arguments are what they were at the start.
    Windows 0, 1, 2 are inputs, never written back; arguments 3 .. 10 are no window's array. -/
theorem kept_of_post (dats : (p : Fin 1) → (c : Dev nD) → Dat τ (Elt F) Unit ℕ (UR sig nD τ) ℕ (cfgs p) c)
    (hA : ∀ c w, (dats 0 c).A w = entry m c (Pipeline.arrRef spec0 w))
    (r : PUnit × MemSt nD τ sig (Elt F)) (h : Pipeline.FramePost cfgs dats 0 (entry m) r) (c : Dev nD) :
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10) :=
  ⟨((h c).1 0).trans (((dats 0 c).arrAt_in 0 rfl _).trans ((hA c 0).trans (entry_arg0 m c))),
   ((h c).1 1).trans (((dats 0 c).arrAt_in 1 rfl _).trans ((hA c 1).trans (entry_arg1 m c))),
   ((h c).1 2).trans (((dats 0 c).arrAt_in 2 rfl _).trans ((hA c 2).trans (entry_arg2 m c))),
   ((h c).2 main_arg3 (Pipeline.mem_restRefs_of main_arg3 (by decide) (by decide))).trans (entry_arg3 m c),
   ((h c).2 main_arg4 (Pipeline.mem_restRefs_of main_arg4 (by decide) (by decide))).trans (entry_arg4 m c),
   ((h c).2 main_arg5 (Pipeline.mem_restRefs_of main_arg5 (by decide) (by decide))).trans (entry_arg5 m c),
   ((h c).2 main_arg6 (Pipeline.mem_restRefs_of main_arg6 (by decide) (by decide))).trans (entry_arg6 m c),
   ((h c).2 main_arg7 (Pipeline.mem_restRefs_of main_arg7 (by decide) (by decide))).trans (entry_arg7 m c),
   ((h c).2 main_arg8 (Pipeline.mem_restRefs_of main_arg8 (by decide) (by decide))).trans (entry_arg8 m c),
   ((h c).2 main_arg9 (Pipeline.mem_restRefs_of main_arg9 (by decide) (by decide))).trans (entry_arg9 m c),
   ((h c).2 main_arg10 (Pipeline.mem_restRefs_of main_arg10 (by decide) (by decide))).trans (entry_arg10 m c)⟩

/-- So a run of @main to such a state leaves the eleven arguments unchanged. -/
theorem unchanged_of_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)) :=
  (θ_run defs _ _).mono (fun r h c => kept_of_post m dats hA r h c) h

end Cert.KernelIdeal.Cell

end
-- ==== Proof.IdealCellBody.lean ====
/-
  One grid point of the fused LSTM-cell kernel, and the launch over all 32 of them.

  At a grid point the body reads the point's 2048-row blocks of the two batch inputs and of the cell
  state, the resident fused weight matrix and bias row, and overwrites the whole of its three output
  blocks: the output gate, the new hidden state and the new cell state, each one pure function of the
  five things read (`outGateBlock`, `hiddenBlock`, `cellBlock`: the skeleton's payloads 3, 4 and 2).
  It also loads each output block just before overwriting it; nothing is done with what is loaded, so
  the output buffers may hold anything when the body starts.

  `cell_body` is the body's triple: from the five inputs at known contents and the three outputs at any
  contents, to the inputs as they were and the outputs at those three functions. `grid` is the pipeline's
  proof data built from it, `launch_run` the run of the whole of @main, and `args_unchanged` the
  statement that the eleven argument arrays end as they began.
-/
import proofs.«424195_j80693845557463_3_alg».proof.Proof.Gen.KernelIdeal.Launch
import proofs.«424195_j80693845557463_3_alg».proof.Proof.Gen.KernelIdeal.Skeleton
import proofs.«424195_j80693845557463_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each is the whole of its buffer -/

abbrev wholeBatch : Rect S2048x256 := Rect.unit (s := S2048x256) ![0, 0] S2048x256.size inb_S2048x256_S2048x256_0_0
abbrev wholeWeights : Rect S256x1024 := Rect.unit (s := S256x1024) ![0, 0] S256x1024.size inb_S256x1024_S256x1024_0_0
abbrev wholeBias : Rect S1x1024 := Rect.unit (s := S1x1024) ![0, 0] S1x1024.size inb_S1x1024_S1x1024_0_0

/-! ## What the body leaves in each output block -/

/-- The output-gate block: the logistic of the fourth quarter of the fused pre-activations. -/
def outGateBlock (x h : Vec F S2048x256 .f32) (w : Vec F S256x1024 .bf16) (b : Vec F S1x1024 .f32) : Vec F S2048x256 .f32 :=
  View.canon [⟨wholeBatch, k0_pay3 (View.ld x wholeBatch) (View.ld h wholeBatch) (View.ld w wholeWeights) (View.ld b wholeBias)⟩]

/-- The new hidden-state block: the output gate times the hyperbolic tangent of the new cell state. -/
def hiddenBlock (x h : Vec F S2048x256 .f32) (w : Vec F S256x1024 .bf16) (b : Vec F S1x1024 .f32) (cell : Vec F S2048x256 .f32) : Vec F S2048x256 .f32 :=
  View.canon [⟨wholeBatch, k0_pay4 (View.ld x wholeBatch) (View.ld h wholeBatch) (View.ld w wholeWeights) (View.ld b wholeBias) (View.ld cell wholeBatch)⟩]

/-- The new cell-state block: the old cell state times the forget gate, plus the candidate times the
    (twice squashed) input gate. -/
def cellBlock (x h : Vec F S2048x256 .f32) (w : Vec F S256x1024 .bf16) (b : Vec F S1x1024 .f32) (cell : Vec F S2048x256 .f32) : Vec F S2048x256 .f32 :=
  View.canon [⟨wholeBatch, k0_pay2 (View.ld x wholeBatch) (View.ld h wholeBatch) (View.ld w wholeWeights) (View.ld b wholeBias) (View.ld cell wholeBatch)⟩]

/-- One store of the whole block covers the block. -/
theorem whole_covers (p0 : Vec F S2048x256 .f32) (y : S2048x256.Idx) :
    ∃ pc ∈ ([⟨wholeBatch, p0⟩] : List (View.Piece (Elt F) S2048x256 .f32)), y ∈ pc.1.set :=
  View.cover_of_tiled [⟨wholeBatch, p0⟩] S2048x256.size (by rfl) y

/-! ## The body's triple -/

set_option maxHeartbeats 1000000 in
/-- The body on whole staging buffers: the two batch inputs, the cell state, the weights and the bias at
    known contents, the three outputs at anything. It returns with the inputs as they were and the outputs
    at `outGateBlock`, `hiddenBlock`, `cellBlock` of them. -/
theorem cell_body (c : Dev nD) (E : Set ℕ) (i : grid0.Coords)
    (arg1 : Memref sig .tc .vmem S2048x256 .f32) (harg1 : arg1.IsWhole) (arg2 : Memref sig .tc .vmem S2048x256 .f32) (harg2 : arg2.IsWhole)
    (arg3 : Memref sig .tc .vmem S2048x256 .f32) (harg3 : arg3.IsWhole) (arg4 : Memref sig .tc .vmem S256x1024 .bf16) (harg4 : arg4.IsWhole)
    (arg5 : Memref sig .tc .vmem S1x1024 .f32) (harg5 : arg5.IsWhole) (arg6 : Memref sig .tc .vmem S2048x256 .f32) (harg6 : arg6.IsWhole)
    (arg7 : Memref sig .tc .vmem S2048x256 .f32) (harg7 : arg7.IsWhole) (arg8 : Memref sig .tc .vmem S2048x256 .f32) (harg8 : arg8.IsWhole)
    (x h cell : Vec F S2048x256 .f32) (w : Vec F S256x1024 .bf16) (b : Vec F S1x1024 .f32) (K : PUnit → sProp 𝕄) :
    iprop(owns (c : Thread nD τ) arg1 fullShare x ∗ owns (c : Thread nD τ) arg2 fullShare h ∗ owns (c : Thread nD τ) arg3 fullShare cell
        ∗ owns (c : Thread nD τ) arg4 fullShare w ∗ owns (c : Thread nD τ) arg5 fullShare b
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cell
            ∗ owns (c : Thread nD τ) arg4 fullShare w ∗ owns (c : Thread nD τ) arg5 fullShare b
            ∗ owns (c : Thread nD τ) arg6 fullShare (outGateBlock x h w b)
            ∗ owns (c : Thread nD τ) arg7 fullShare (hiddenBlock x h w b cell)
            ∗ owns (c : Thread nD τ) arg8 fullShare (cellBlock x h w b cell)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (whole_covers _)
  isplitl [H6]
  · iexists _; isplitr
    swap; · iexact H6
    ipureintro
    exact View.read_writes_eq_canon _ _ _ (whole_covers _)
  iexists _; isplitr
  swap; · iexact H7
  ipureintro
  exact View.read_writes_eq_canon _ _ _ (whole_covers _)

end Cert.KernelIdeal.Cell

end
-- ==== Proof.IdealGrid.lean ====
/-
  The launch over its 32 grid points: the pipeline's proof data, the obligation the body owes at each
  point, the run of the whole of @main, and what it leaves.

  After the body at point `t`, each of the five input windows still holds its block at `t` (the body only
  reads them) and the three output windows hold the output gate, the new hidden state and the new cell
  state computed from those blocks (`outGateBlock`, `hiddenBlock`, `cellBlock`). Nothing else of the
  core is touched, and the kernel signals no one. The pipeline writes each output block back to rows
  2048 t .. 2048 t + 2047 of its array; the library's `arrAt` is the array after those write-backs.
-/
import proofs.«424195_j80693845557463_3_alg».proof.Proof.IdealLaunchEntry
import proofs.«424195_j80693845557463_3_alg».proof.Proof.IdealCellBody

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The one pipeline's proof data on core `c`: the arrays as the launch finds them; after the body at
    point `t` each input window at its block and each output window at its function of the input blocks;
    the invariant the scoped rest and the generator register, untouched; nothing owed; full shares. -/
def grid (_ : Fin 1) (c : Dev nD) : Dat τ (Elt F) Unit ℕ (UR sig nD τ) ℕ cfg0 c where
  A w := entry m c (Pipeline.arrRef spec0 w)
  after w t := match w with
    | ⟨0, _⟩ => rowBlock m c 0 t
    | ⟨1, _⟩ => rowBlock m c 1 t
    | ⟨2, _⟩ => rowBlock m c 2 t
    | ⟨3, _⟩ => rowBlock m c 3 t
    | ⟨4, _⟩ => rowBlock m c 4 t
    | ⟨5, _⟩ => outGateBlock (rowBlock m c 0 t) (rowBlock m c 1 t) (rowBlock m c 3 t) (rowBlock m c 4 t)
    | ⟨6, _⟩ => hiddenBlock (rowBlock m c 0 t) (rowBlock m c 1 t) (rowBlock m c 3 t) (rowBlock m c 4 t) (rowBlock m c 2 t)
    | ⟨7, _⟩ => cellBlock (rowBlock m c 0 t) (rowBlock m c 1 t) (rowBlock m c 3 t) (rowBlock m c 4 t) (rowBlock m c 2 t)
  Φ _ := Pipeline.ΦA spec0 c
  q _ := fullShare
  owed _ := 0

/-- The proof data's arrays are the contents at the launch (projected, never unfolded). -/
theorem grid_A (c : Dev nD) (w : Fin cfg0.W) : (grid m 0 c).A w = entry m c (Pipeline.arrRef spec0 w) := by
  dsimp only [grid]

theorem after_in0 (c : Dev nD) (t : Fin cfg0.N) : (grid m 0 c).after 0 t = rowBlock m c 0 t := by dsimp only [grid]
theorem after_in1 (c : Dev nD) (t : Fin cfg0.N) : (grid m 0 c).after 1 t = rowBlock m c 1 t := by dsimp only [grid]
theorem after_in2 (c : Dev nD) (t : Fin cfg0.N) : (grid m 0 c).after 2 t = rowBlock m c 2 t := by dsimp only [grid]
theorem after_in3 (c : Dev nD) (t : Fin cfg0.N) : (grid m 0 c).after 3 t = rowBlock m c 3 t := by dsimp only [grid]
theorem after_in4 (c : Dev nD) (t : Fin cfg0.N) : (grid m 0 c).after 4 t = rowBlock m c 4 t := by dsimp only [grid]
theorem after_outGate (c : Dev nD) (t : Fin cfg0.N) : (grid m 0 c).after 5 t
    = outGateBlock (rowBlock m c 0 t) (rowBlock m c 1 t) (rowBlock m c 3 t) (rowBlock m c 4 t) := by dsimp only [grid]
theorem after_hidden (c : Dev nD) (t : Fin cfg0.N) : (grid m 0 c).after 6 t
    = hiddenBlock (rowBlock m c 0 t) (rowBlock m c 1 t) (rowBlock m c 3 t) (rowBlock m c 4 t) (rowBlock m c 2 t) := by dsimp only [grid]
theorem after_cell (c : Dev nD) (t : Fin cfg0.N) : (grid m 0 c).after 7 t
    = cellBlock (rowBlock m c 0 t) (rowBlock m c 1 t) (rowBlock m c 3 t) (rowBlock m c 4 t) (rowBlock m c 2 t) := by dsimp only [grid]

/-- Each input window's current staging buffer holds its block at every point. -/
theorem before_in0 (c : Dev nD) (t : Fin cfg0.N) (d) : (grid m 0 c).before 0 t d = rowBlock m c 0 t :=
  before_input0_of m (grid m 0 c) (grid_A m c 0) (after_in0 m c) t d
theorem before_in1 (c : Dev nD) (t : Fin cfg0.N) (d) : (grid m 0 c).before 1 t d = rowBlock m c 1 t :=
  before_input1_of m (grid m 0 c) (grid_A m c 1) (after_in1 m c) t d
theorem before_in2 (c : Dev nD) (t : Fin cfg0.N) (d) : (grid m 0 c).before 2 t d = rowBlock m c 2 t :=
  before_input2_of m (grid m 0 c) (grid_A m c 2) (after_in2 m c) t d
theorem before_in3 (c : Dev nD) (t : Fin cfg0.N) (d) : (grid m 0 c).before 3 t d = rowBlock m c 3 t :=
  before_input3_of m (grid m 0 c) (grid_A m c 3) (after_in3 m c) t d
theorem before_in4 (c : Dev nD) (t : Fin cfg0.N) (d) : (grid m 0 c).before 4 t d = rowBlock m c 4 t :=
  before_input4_of m (grid m 0 c) (grid_A m c 4) (after_in4 m c) t d

/-! ## The body's obligation at a grid point -/

/-- What the body is called with at point `t`, the eight windows one by one, -/
def pointPre (c : Dev nD) (t : Fin cfg0.N) : sProp 𝕄 :=
  iprop((grid m 0 c).Φ t.castSucc ∗ (grid m 0 c).owesAt () t.castSucc
    ∗ (∃ d, owns (c : Thread nD τ) (st0_0 t) fullShare ((grid m 0 c).before 0 t d))
    ∗ (∃ d, owns (c : Thread nD τ) (st0_1 t) fullShare ((grid m 0 c).before 1 t d))
    ∗ (∃ d, owns (c : Thread nD τ) (st0_2 t) fullShare ((grid m 0 c).before 2 t d))
    ∗ (∃ d, owns (c : Thread nD τ) (st0_3 t) fullShare ((grid m 0 c).before 3 t d))
    ∗ (∃ d, owns (c : Thread nD τ) (st0_4 t) fullShare ((grid m 0 c).before 4 t d))
    ∗ (∃ d, owns (c : Thread nD τ) (st0_5 t) fullShare ((grid m 0 c).before 5 t d))
    ∗ (∃ d, owns (c : Thread nD τ) (st0_6 t) fullShare ((grid m 0 c).before 6 t d))
    ∗ (∃ d, owns (c : Thread nD τ) (st0_7 t) fullShare ((grid m 0 c).before 7 t d)))

/-- and what it returns. -/
def pointPost (c : Dev nD) (t : Fin cfg0.N) : sProp 𝕄 :=
  iprop((grid m 0 c).Φ t.succ ∗ (grid m 0 c).owesAt () t.succ
    ∗ owns (c : Thread nD τ) (st0_0 t) fullShare ((grid m 0 c).after 0 t)
    ∗ owns (c : Thread nD τ) (st0_1 t) fullShare ((grid m 0 c).after 1 t)
    ∗ owns (c : Thread nD τ) (st0_2 t) fullShare ((grid m 0 c).after 2 t)
    ∗ owns (c : Thread nD τ) (st0_3 t) fullShare ((grid m 0 c).after 3 t)
    ∗ owns (c : Thread nD τ) (st0_4 t) fullShare ((grid m 0 c).after 4 t)
    ∗ owns (c : Thread nD τ) (st0_5 t) fullShare ((grid m 0 c).after 5 t)
    ∗ owns (c : Thread nD τ) (st0_6 t) fullShare ((grid m 0 c).after 6 t)
    ∗ owns (c : Thread nD τ) (st0_7 t) fullShare ((grid m 0 c).after 7 t))

/-- The body at any point: the input buffers hold their blocks, so the body's triple applies; the invariant
    and the core's dues pass through unread. -/
theorem point_run (c : Dev nD) (t : Fin cfg0.N) :
    pointPre m c t ⊢ wp frame (wpE (defs₀ (F := F)) Variants.none c none) Set.univ (bodyAt0 t) (fun _ => pointPost m c t) := by
  unfold pointPre pointPost bodyAt0
  simp only [before_in0, before_in1, before_in2, before_in3, before_in4]
  rw [show (grid m 0 c).Φ t.succ = (grid m 0 c).Φ t.castSucc from rfl,
    show (grid m 0 c).owesAt () t.succ = (grid m 0 c).owesAt () t.castSucc from rfl,
    after_in0, after_in1, after_in2, after_in3, after_in4, after_outGate, after_hidden, after_cell]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (cell_body c Set.univ (grid0.coords t) _ _ _ _ _ _ _ _ _ _ _ _ _ _ _ _
    (rowBlock m c 0 t) (rowBlock m c 1 t) (rowBlock m c 2 t) (rowBlock m c 3 t) (rowBlock m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (grid (F := F) m 0 c) (defs₀ (F := F)) Variants.none () Set.univ := fun t => by
  rw [bigSep_W0, bigSep_W0]
  exact point_run m c t

/-! ## The run -/

set_option backward.isDefEq.respectTransparency.types false in
/-- Every weakly fair execution of @main terminates, and every final state has each window's array at the
    library's account of the write-backs and every other unscoped buffer as the launch found it. -/
theorem launch_run : θ_run defs (onTc (τ := τ) (main (F := F))) (s₀ m ρ) (Pipeline.FramePost cfgs (grid m) 0 (entry m)) :=
  Pipeline.θ_run_frame cfgs (grid m) (0 : Fin 1) launch0 defs₀ Variants.none m ρ main
    (hbody := fun c => (body_obligation m c).loose) (hshare := fun c => (grid m 0 c).share_full fun _ => rfl)
    (howed := fun _ _ => rfl) (V := entry m) (hmain := main_to_launch m Variants.none) (hA := grid_A m) (hΦ := fun _ _ => rfl)

/-- The eleven argument arrays end as they began. -/
theorem args_unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  unchanged_of_run m ρ (grid m) (grid_A m) (launch_run m ρ)

end Cert.KernelIdeal.Cell

end
-- ==== Proof.LstmCellSpec.lean ====
/-
  The LSTM cell as three functions of its eleven arguments, entry by entry, over the extended reals.

  Write s = x + h for the sum of the two batch inputs (65536 rows of 256). A gate with weight matrix W
  (256 x 256, one row per output unit) and bias b has pre-activation

      pre(W, b)(r, j) = (sum over k < 256 of s(r, k) * W(j, k)) + b(j).

  With sigma the logistic function 1 / (1 + exp (-z)):

      out    = sigma (pre(Wo, bo))
      cell'  = cell * sigma (pre(Wf, bf)) + tanh (pre(Wc, bc)) * sigma (sigma (pre(Wi, bi)))
      hidden = out * tanh (cell').

  Both programs compute exactly these: the reference with four separate matrix products and the logistic
  spelt out as a quotient, the kernel with one product against the four transposed weight matrices laid
  side by side, of which it then takes the four quarters. No law of arithmetic beyond reading each
  operation at an index is needed to join them, so nothing here depends on the inputs being finite.
-/
import Idealize.ShloMosaic.PureOps.Ideal
import Idealize.ShloMosaic.Lib.ValueIdx
import Idealize.ShloMosaic.Lib.IdealHost

noncomputable section

namespace Cert.LstmCell

open Idealize.ShloMosaic

/-- The shapes of the arguments: a batch array, a gate's weight matrix, a gate's bias. -/
abbrev SBatch : Shape := ⟨2, ![65536, 256]⟩
abbrev SGate : Shape := ⟨2, ![256, 256]⟩
abbrev SBias : Shape := ⟨1, ![256]⟩

/-- Entry `(row of i, k)` of a batch array. -/
abbrev inRow (i : SBatch.Idx) (k : Fin 256) : SBatch.Idx := fun a => match a with
  | ⟨0, _⟩ => ⟨(i 0).val, (i 0).isLt⟩
  | ⟨1, _⟩ => ⟨k.val, k.isLt⟩

/-- Entry `(column of i, k)` of a gate's weight matrix: the weight of input `k` for output unit `i 1`. -/
abbrev unitWeight (i : SBatch.Idx) (k : Fin 256) : SGate.Idx := fun a => match a with
  | ⟨0, _⟩ => ⟨(i 1).val, (i 1).isLt⟩
  | ⟨1, _⟩ => ⟨k.val, k.isLt⟩

/-- Entry `column of i` of a gate's bias. -/
abbrev unitBias (i : SBatch.Idx) : SBias.Idx := fun a => match a with
  | ⟨0, _⟩ => ⟨(i 1).val, (i 1).isLt⟩

/-- A gate's pre-activation at entry `i`: the row of `x + h` against the unit's weights, plus its bias. -/
def gatePre (x h : SBatch.Idx → EReal) (W : SGate.Idx → EReal) (b : SBias.Idx → EReal) (i : SBatch.Idx) : EReal :=
  (∑ k : Fin 256, (x (inRow i k) + h (inRow i k)) * W (unitWeight i k)) + b (unitBias i)

/-- The output gate. -/
def outGate (x h : SBatch.Idx → EReal) (Wo : SGate.Idx → EReal) (bo : SBias.Idx → EReal) : SBatch.Idx → EReal :=
  fun i => Ideal.logistic (gatePre x h Wo bo i)

/-- The new cell state: the old one through the forget gate, plus the candidate through the twice-squashed
    input gate. -/
def cellState (x h cell : SBatch.Idx → EReal) (Wf : SGate.Idx → EReal) (bf : SBias.Idx → EReal)
    (Wc : SGate.Idx → EReal) (bc : SBias.Idx → EReal) (Wi : SGate.Idx → EReal) (bi : SBias.Idx → EReal) : SBatch.Idx → EReal :=
  fun i => cell i * Ideal.logistic (gatePre x h Wf bf i)
    + Ideal.tanh (gatePre x h Wc bc i) * Ideal.logistic (Ideal.logistic (gatePre x h Wi bi i))

/-- The new hidden state: the output gate times the squashed new cell state. -/
def hiddenState (x h cell : SBatch.Idx → EReal) (Wf : SGate.Idx → EReal) (bf : SBias.Idx → EReal)
    (Wc : SGate.Idx → EReal) (bc : SBias.Idx → EReal) (Wi : SGate.Idx → EReal) (bi : SBias.Idx → EReal)
    (Wo : SGate.Idx → EReal) (bo : SBias.Idx → EReal) : SBatch.Idx → EReal :=
  fun i => outGate x h Wo bo i * Ideal.tanh (cellState x h cell Wf bf Wc bc Wi bi i)

/-- The logistic function is the quotient the reference spells out, with the literal one for its two
    constants. -/
theorem logistic_as_quotient (z : EReal) :
    Ideal.div (Ideal.ofBits .f32 0x3F800000#32) (Ideal.ofBits .f32 0x3F800000#32 + Ideal.exp (-z)) = Ideal.logistic z := by
  rw [Ideal.ofBits_one_f32]; rfl

end Cert.LstmCell

end
-- ==== Proof.IdealCellValue.lean ====
/-
  What the kernel body computes, entry by entry, from the blocks it loads (over the extended reals).

  The body forms s = x + h, multiplies the 2048 x 256 block s by the resident 256 x 1024 fused weight
  matrix into a zero accumulator, and adds the bias row to every row:

      fused(p, n) = (sum over k < 256 of (x(p, k) + h(p, k)) * w(k, n)) + bias(0, n).

  (Narrowing s to bf16 is the identity on the extended reals, and the two shape casts are between equal
  shapes.) Column block g of `fused`, columns 256 g .. 256 g + 255, is gate g's pre-activation. The three
  stored values are then

      out    = sigma (fused quarter 3)
      cell'  = cell * sigma (fused quarter 0) + tanh (fused quarter 1) * sigma (sigma (fused quarter 2))
      hidden = out * tanh (cell').
-/
import proofs.«424195_j80693845557463_3_alg».proof.Proof.Gen.KernelIdeal.Skeleton
import proofs.«424195_j80693845557463_3_alg».proof.Proof.LstmCellSpec
import Idealize.ShloMosaic.Lib.ValueIdx
import Idealize.ShloMosaic.Lib.Pipeline.Value
import Idealize.ShloMosaic.PureOps.Ideal.Laws

noncomputable section

namespace Cert.KernelIdeal.Cell

open Cert.KernelIdeal Cert.KernelIdeal.Gen Cert.LstmCell
open Idealize.ShloMosaic Idealize.ShloMosaic.TcCoe Idealize.ShloMosaic.ValueIdx

/-! ## The product's operand indices, axis by axis -/

theorem fused_lhs_0 (i : S2048x1024.Idx) (q : dot_S2048x256_S256x1024_S2048x1024_1_0_0_1_n_n.contr.Idx) :
    (dot_S2048x256_S256x1024_S2048x1024_1_0_0_1_n_n.lhsIdx i q 0).val = (i 0).val := by
  unfold DotDims.lhsIdx
  rw [dif_neg (show ¬(0 : Fin S2048x256.rank) ∈ dot_S2048x256_S256x1024_S2048x1024_1_0_0_1_n_n.lhsBatch by decide), dif_pos (show (0 : Fin S2048x256.rank) ∈ dot_S2048x256_S256x1024_S2048x1024_1_0_0_1_n_n.lhsNonContracting by decide)]
  rfl
theorem fused_lhs_1 (i : S2048x1024.Idx) (q : dot_S2048x256_S256x1024_S2048x1024_1_0_0_1_n_n.contr.Idx) :
    (dot_S2048x256_S256x1024_S2048x1024_1_0_0_1_n_n.lhsIdx i q 1).val = (q ⟨0, by decide⟩).val :=
  dot_S2048x256_S256x1024_S2048x1024_1_0_0_1_n_n.lhsIdx_val_of_single rfl i q
theorem fused_rhs_0 (i : S2048x1024.Idx) (q : dot_S2048x256_S256x1024_S2048x1024_1_0_0_1_n_n.contr.Idx) :
    (dot_S2048x256_S256x1024_S2048x1024_1_0_0_1_n_n.rhsIdx i q 0).val = (q ⟨0, by decide⟩).val :=
  dot_S2048x256_S256x1024_S2048x1024_1_0_0_1_n_n.rhsIdx_val_of_single rfl i q
theorem fused_rhs_1 (i : S2048x1024.Idx) (q : dot_S2048x256_S256x1024_S2048x1024_1_0_0_1_n_n.contr.Idx) :
    (dot_S2048x256_S256x1024_S2048x1024_1_0_0_1_n_n.rhsIdx i q 1).val = (i 1).val := by
  unfold DotDims.rhsIdx
  rw [dif_neg (show ¬(1 : Fin S256x1024.rank) ∈ dot_S2048x256_S256x1024_S2048x1024_1_0_0_1_n_n.rhsBatch by decide), dif_pos (show (1 : Fin S256x1024.rank) ∈ dot_S2048x256_S256x1024_S2048x1024_1_0_0_1_n_n.rhsNonContracting by decide)]
  rfl

/-- Entry `(row of i, k)` of a batch block. -/
abbrev blockRow (i : S2048x1024.Idx) (k : Fin 256) : S2048x256.Idx := fun a => match a with
  | ⟨0, _⟩ => ⟨(i 0).val, (i 0).isLt⟩
  | ⟨1, _⟩ => ⟨k.val, k.isLt⟩
/-- Entry `(k, column of i)` of the fused weight matrix. -/
abbrev fusedCol (i : S2048x1024.Idx) (k : Fin 256) : S256x1024.Idx := fun a => match a with
  | ⟨0, _⟩ => ⟨k.val, k.isLt⟩
  | ⟨1, _⟩ => ⟨(i 1).val, (i 1).isLt⟩
/-- Entry `(0, column of i)` of the bias row. -/
abbrev fusedBias (i : S2048x1024.Idx) : S1x1024.Idx := fun a => match a with
  | ⟨0, _⟩ => ⟨0, Nat.one_pos⟩
  | ⟨1, _⟩ => ⟨(i 1).val, (i 1).isLt⟩

/-! ## The fused pre-activations -/

/-- All four gates' pre-activations of one block of rows, side by side. -/
def fused (x h : FVec Ideal S2048x256 .f32) (w : FVec Ideal S256x1024 .bf16) (b : FVec Ideal S1x1024 .f32) (i : S2048x1024.Idx) : EReal :=
  (∑ k : Fin 256, (x (blockRow i k) + h (blockRow i k)) * w (fusedCol i k)) + b (fusedBias i)

/-- The body's first payload is `fused`: the product into the zero accumulator is the plain sum over the
    contracted axis, and the broadcast bias row is read at row 0. -/
theorem fused_at (x h : FVec Ideal S2048x256 .f32) (w : FVec Ideal S256x1024 .bf16) (b : FVec Ideal S1x1024 .f32) (i : S2048x1024.Idx) :
    k0_pay1 (F := Ideal) x h w b i = fused x h w b i := by
  unfold k0_pay1 fused
  rw [ValueIdx.addf_apply, shapeCast_self, shapeCast_self]
  refine congrArg₂ (· + ·) ?_ ?_
  · simp only [matmul]
    rw [Ideal.matmul_constant_zero_apply,
      ← Equiv.sum_comp (ValueIdx.contrEquiv1 dot_S2048x256_S256x1024_S2048x1024_1_0_0_1_n_n 256 rfl rfl).symm]
    refine Finset.sum_congr rfl fun k _ => ?_
    have hk := ValueIdx.contrEquiv1_symm_val dot_S2048x256_S256x1024_S2048x1024_1_0_0_1_n_n 256 rfl rfl k
    have el : dot_S2048x256_S256x1024_S2048x1024_1_0_0_1_n_n.lhsIdx i ((ValueIdx.contrEquiv1 dot_S2048x256_S256x1024_S2048x1024_1_0_0_1_n_n 256 rfl rfl).symm k) = blockRow i k := funext fun a => Fin.ext (by
      match a with
      | ⟨0, _⟩ => exact fused_lhs_0 _ _
      | ⟨1, _⟩ => exact (fused_lhs_1 _ _).trans hk)
    have er : dot_S2048x256_S256x1024_S2048x1024_1_0_0_1_n_n.rhsIdx i ((ValueIdx.contrEquiv1 dot_S2048x256_S256x1024_S2048x1024_1_0_0_1_n_n 256 rfl rfl).symm k) = fusedCol i k := funext fun a => Fin.ext (by
      match a with
      | ⟨0, _⟩ => exact (fused_rhs_0 _ _).trans hk
      | ⟨1, _⟩ => exact fused_rhs_1 _ _)
    rw [el, er]
    rfl
  · exact broadcastTo_apply b broadcasts_S1x1024_S2048x1024 i (fusedBias i) (fun a => match a with
      | ⟨0, _⟩ => by show 0 = if (1 : Nat) = 1 then 0 else (i 0).val; rw [if_pos rfl]
      | ⟨1, _⟩ => by show (i 1).val = if (1024 : Nat) = 1 then 0 else (i 1).val; rw [if_neg (by decide)])

/-! ## The four quarters -/

/-- Entry `j` of column block `g` of the fused array: column `256 g + (column of j)`. -/
abbrev quarter (g : Fin 4) (j : S2048x256.Idx) : S2048x1024.Idx := fun a => match a with
  | ⟨0, _⟩ => ⟨(j 0).val, (j 0).isLt⟩
  | ⟨1, _⟩ => ⟨256 * g.val + (j 1).val, by
      have h1 : (j 1).val < 256 := (j 1).isLt
      have hg : g.val < 4 := g.isLt
      show 256 * g.val + (j 1).val < 1024
      omega⟩

theorem quarter0_at (X : FVec Ideal S2048x1024 .f32) (j : S2048x256.Idx) :
    extractStridedSlice S2048x256 ![0, 0] X slices_S2048x1024_o0_0_S2048x256 j = X (quarter 0 j) :=
  extractStridedSlice_apply ![0, 0] X slices_S2048x1024_o0_0_S2048x256 j (quarter 0 j) (fun a => match a with
    | ⟨0, _⟩ => by show (j 0).val = 0 + (j 0).val; omega
    | ⟨1, _⟩ => by show 256 * 0 + (j 1).val = 0 + (j 1).val; omega)
theorem quarter1_at (X : FVec Ideal S2048x1024 .f32) (j : S2048x256.Idx) :
    extractStridedSlice S2048x256 ![0, 256] X slices_S2048x1024_o0_256_S2048x256 j = X (quarter 1 j) :=
  extractStridedSlice_apply ![0, 256] X slices_S2048x1024_o0_256_S2048x256 j (quarter 1 j) (fun a => match a with
    | ⟨0, _⟩ => by show (j 0).val = 0 + (j 0).val; omega
    | ⟨1, _⟩ => by show 256 * 1 + (j 1).val = 256 + (j 1).val; omega)
theorem quarter2_at (X : FVec Ideal S2048x1024 .f32) (j : S2048x256.Idx) :
    extractStridedSlice S2048x256 ![0, 512] X slices_S2048x1024_o0_512_S2048x256 j = X (quarter 2 j) :=
  extractStridedSlice_apply ![0, 512] X slices_S2048x1024_o0_512_S2048x256 j (quarter 2 j) (fun a => match a with
    | ⟨0, _⟩ => by show (j 0).val = 0 + (j 0).val; omega
    | ⟨1, _⟩ => by show 256 * 2 + (j 1).val = 512 + (j 1).val; omega)
theorem quarter3_at (X : FVec Ideal S2048x1024 .f32) (j : S2048x256.Idx) :
    extractStridedSlice S2048x256 ![0, 768] X slices_S2048x1024_o0_768_S2048x256 j = X (quarter 3 j) :=
  extractStridedSlice_apply ![0, 768] X slices_S2048x1024_o0_768_S2048x256 j (quarter 3 j) (fun a => match a with
    | ⟨0, _⟩ => by show (j 0).val = 0 + (j 0).val; omega
    | ⟨1, _⟩ => by show 256 * 3 + (j 1).val = 768 + (j 1).val; omega)

/-! ## The three stored values -/

/-- The output-gate payload: the logistic of the fourth quarter. -/
theorem outGate_payload_at (x h : FVec Ideal S2048x256 .f32) (w : FVec Ideal S256x1024 .bf16) (b : FVec Ideal S1x1024 .f32) (j : S2048x256.Idx) :
    k0_pay3 (F := Ideal) x h w b j = Ideal.logistic (fused x h w b (quarter 3 j)) := by
  unfold k0_pay3
  show Ideal.logistic (extractStridedSlice S2048x256 ![0, 768] (k0_pay1 (F := Ideal) x h w b) slices_S2048x1024_o0_768_S2048x256 j) = _
  rw [quarter3_at, fused_at]

/-- The cell-state payload. -/
theorem cell_payload_at (x h : FVec Ideal S2048x256 .f32) (w : FVec Ideal S256x1024 .bf16) (b : FVec Ideal S1x1024 .f32)
    (cell : FVec Ideal S2048x256 .f32) (j : S2048x256.Idx) :
    k0_pay2 (F := Ideal) x h w b cell j
      = cell j * Ideal.logistic (fused x h w b (quarter 0 j))
        + Ideal.tanh (fused x h w b (quarter 1 j)) * Ideal.logistic (Ideal.logistic (fused x h w b (quarter 2 j))) := by
  unfold k0_pay2
  show cell j * Ideal.logistic (extractStridedSlice S2048x256 ![0, 0] (k0_pay1 (F := Ideal) x h w b) slices_S2048x1024_o0_0_S2048x256 j)
      + Ideal.tanh (extractStridedSlice S2048x256 ![0, 256] (k0_pay1 (F := Ideal) x h w b) slices_S2048x1024_o0_256_S2048x256 j)
        * Ideal.logistic (Ideal.logistic (extractStridedSlice S2048x256 ![0, 512] (k0_pay1 (F := Ideal) x h w b) slices_S2048x1024_o0_512_S2048x256 j)) = _
  rw [quarter0_at, quarter1_at, quarter2_at, fused_at, fused_at, fused_at]

/-- The hidden-state payload: the output gate times the squashed new cell state. -/
theorem hidden_payload_at (x h : FVec Ideal S2048x256 .f32) (w : FVec Ideal S256x1024 .bf16) (b : FVec Ideal S1x1024 .f32)
    (cell : FVec Ideal S2048x256 .f32) (j : S2048x256.Idx) :
    k0_pay4 (F := Ideal) x h w b cell j
      = k0_pay3 (F := Ideal) x h w b j * Ideal.tanh (k0_pay2 (F := Ideal) x h w b cell j) := rfl

end Cert.KernelIdeal.Cell

end
-- ==== Proof.IdealFusedParams.lean ====
/-
  The fused parameters the launch finds, read entry by entry (over the extended reals).

  The host prefix lays the four transposed weight matrices side by side: entry (k, 256 g + q) of the
  fused 256 x 1024 matrix is entry (k, q) of gate g's transposed weights, that is entry (q, k) of gate
  g's weights (narrowing to bf16 is the identity here). The four biases are laid end to end and the
  result is viewed as one row: entry (0, 256 g + q) of the row is entry q of gate g's bias.
-/
import proofs.«424195_j80693845557463_3_alg».proof.Proof.IdealLaunchEntry
import Idealize.ShloMosaic.Lib.ValueIdx
import Idealize.ShloMosaic.Lib.Pipeline.Value
import Idealize.ShloMosaic.Lib.StableHlo.Run

set_option maxRecDepth 16384

noncomputable section

namespace Cert.KernelIdeal.Cell

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-! ## The two fused arrays as terms of the arguments -/

/-- The four transposed weight matrices, in the order they are laid side by side. -/
abbrev weightPieces (c : Dev nD) : List ((s : Shape) × (s.Idx → EReal)) :=
  [⟨S256x256, transpose S256x256 [1, 0] (m ((c : Thread nD τ).loc main_arg3)) transposes_S256x256_S256x256_1_0⟩, ⟨S256x256, transpose S256x256 [1, 0] (m ((c : Thread nD τ).loc main_arg5)) transposes_S256x256_S256x256_1_0⟩,
        ⟨S256x256, transpose S256x256 [1, 0] (m ((c : Thread nD τ).loc main_arg7)) transposes_S256x256_S256x256_1_0⟩, ⟨S256x256, transpose S256x256 [1, 0] (m ((c : Thread nD τ).loc main_arg9)) transposes_S256x256_S256x256_1_0⟩]

/-- The four biases, in the order they are laid end to end. -/
abbrev biasPieces (c : Dev nD) : List ((s : Shape) × (s.Idx → EReal)) :=
  [⟨S256, m ((c : Thread nD τ).loc main_arg4)⟩, ⟨S256, m ((c : Thread nD τ).loc main_arg6)⟩,
        ⟨S256, m ((c : Thread nD τ).loc main_arg8)⟩, ⟨S256, m ((c : Thread nD τ).loc main_arg10)⟩]

/-- The fused weight matrix at the launch: the four transposes side by side, narrowed. -/
theorem launch_weights (c : Dev nD) :
    (entry m c main_v5 : S256x1024.Idx → EReal)
      = truncf (F := Ideal) .bf16 (concatenate S256x1024 1 (weightPieces m c)
          concatenates_S256x256_S256x256_S256x256_S256x256_S256x1024_d1) bitsLt_bf16_f32 := by
  dsimp only [entry, hostOps0]; after_results; rfl

/-- The fused bias row at the launch: the four biases end to end, as one row. -/
theorem launch_bias (c : Dev nD) :
    (entry m c main_v7 : S1x1024.Idx → EReal)
      = shapeCast S1x1024 (concatenate S1024 0 (biasPieces m c)
          concatenates_S256_S256_S256_S256_S1024_d0) shapeCasts_S1024_S1x1024 := by
  dsimp only [entry, hostOps0]; after_results; rfl

/-! ## Read at an index -/

/-- Entry `(row of j, q)` of a transposed weight matrix ... -/
abbrev transposedEntry (q : Fin 256) (j : S256x1024.Idx) : S256x256.Idx := fun a => match a with
  | ⟨0, _⟩ => ⟨(j 0).val, (j 0).isLt⟩
  | ⟨1, _⟩ => ⟨q.val, q.isLt⟩
/-- ... is entry `(q, row of j)` of the weight matrix. -/
abbrev weightEntry (q : Fin 256) (j : S256x1024.Idx) : S256x256.Idx := fun a => match a with
  | ⟨0, _⟩ => ⟨q.val, q.isLt⟩
  | ⟨1, _⟩ => ⟨(j 0).val, (j 0).isLt⟩
/-- Entry `column of j` of the biases laid end to end. -/
abbrev flatEntry (j : S1x1024.Idx) : S1024.Idx := fun a => match a with
  | ⟨0, _⟩ => ⟨(j 1).val, (j 1).isLt⟩

/-- Column `256 * 0 + q` of the fused matrix is row `q` of the forget gate's weights. -/
theorem fused_weights_forget (c : Dev nD) (j : S256x1024.Idx) (q : Fin 256) (hq : (j 1).val = 256 * 0 + q.val) :
    (entry m c main_v5 : S256x1024.Idx → EReal) j = m ((c : Thread nD τ).loc main_arg3) (weightEntry q j) := by
  rw [launch_weights, ValueIdx.truncf_apply]
  refine (concatenate_apply_piece (1 : Fin S256x1024.rank) (weightPieces m c) concatenates_S256x256_S256x256_S256x256_S256x256_S256x1024_d1 j
    0 (by show (0 : Nat) < 4; omega) S256x256 (transpose S256x256 [1, 0] (m ((c : Thread nD τ).loc main_arg3)) transposes_S256x256_S256x256_1_0) rfl rfl (256 * 0) (by rfl) (transposedEntry q j)
    (fun b hb => by
      match b with
      | ⟨0, _⟩ => rfl
      | ⟨1, _⟩ => exact absurd rfl hb)
    (by show 256 * 0 + q.val = (j 1).val; omega)).trans ?_
  exact transpose_apply [1, 0] _ transposes_S256x256_S256x256_1_0 (transposedEntry q j) (weightEntry q j) (fun b => match b with
    | ⟨0, _⟩ => rfl
    | ⟨1, _⟩ => rfl)

/-- Column `256 * 1 + q` of the fused matrix is row `q` of the candidate gate's weights. -/
theorem fused_weights_candidate (c : Dev nD) (j : S256x1024.Idx) (q : Fin 256) (hq : (j 1).val = 256 * 1 + q.val) :
    (entry m c main_v5 : S256x1024.Idx → EReal) j = m ((c : Thread nD τ).loc main_arg5) (weightEntry q j) := by
  rw [launch_weights, ValueIdx.truncf_apply]
  refine (concatenate_apply_piece (1 : Fin S256x1024.rank) (weightPieces m c) concatenates_S256x256_S256x256_S256x256_S256x256_S256x1024_d1 j
    1 (by show (1 : Nat) < 4; omega) S256x256 (transpose S256x256 [1, 0] (m ((c : Thread nD τ).loc main_arg5)) transposes_S256x256_S256x256_1_0) rfl rfl (256 * 1) (by rfl) (transposedEntry q j)
    (fun b hb => by
      match b with
      | ⟨0, _⟩ => rfl
      | ⟨1, _⟩ => exact absurd rfl hb)
    (by show 256 * 1 + q.val = (j 1).val; omega)).trans ?_
  exact transpose_apply [1, 0] _ transposes_S256x256_S256x256_1_0 (transposedEntry q j) (weightEntry q j) (fun b => match b with
    | ⟨0, _⟩ => rfl
    | ⟨1, _⟩ => rfl)

/-- Column `256 * 2 + q` of the fused matrix is row `q` of the input gate's weights. -/
theorem fused_weights_input (c : Dev nD) (j : S256x1024.Idx) (q : Fin 256) (hq : (j 1).val = 256 * 2 + q.val) :
    (entry m c main_v5 : S256x1024.Idx → EReal) j = m ((c : Thread nD τ).loc main_arg7) (weightEntry q j) := by
  rw [launch_weights, ValueIdx.truncf_apply]
  refine (concatenate_apply_piece (1 : Fin S256x1024.rank) (weightPieces m c) concatenates_S256x256_S256x256_S256x256_S256x256_S256x1024_d1 j
    2 (by show (2 : Nat) < 4; omega) S256x256 (transpose S256x256 [1, 0] (m ((c : Thread nD τ).loc main_arg7)) transposes_S256x256_S256x256_1_0) rfl rfl (256 * 2) (by rfl) (transposedEntry q j)
    (fun b hb => by
      match b with
      | ⟨0, _⟩ => rfl
      | ⟨1, _⟩ => exact absurd rfl hb)
    (by show 256 * 2 + q.val = (j 1).val; omega)).trans ?_
  exact transpose_apply [1, 0] _ transposes_S256x256_S256x256_1_0 (transposedEntry q j) (weightEntry q j) (fun b => match b with
    | ⟨0, _⟩ => rfl
    | ⟨1, _⟩ => rfl)

/-- Column `256 * 3 + q` of the fused matrix is row `q` of the output gate's weights. -/
theorem fused_weights_output (c : Dev nD) (j : S256x1024.Idx) (q : Fin 256) (hq : (j 1).val = 256 * 3 + q.val) :
    (entry m c main_v5 : S256x1024.Idx → EReal) j = m ((c : Thread nD τ).loc main_arg9) (weightEntry q j) := by
  rw [launch_weights, ValueIdx.truncf_apply]
  refine (concatenate_apply_piece (1 : Fin S256x1024.rank) (weightPieces m c) concatenates_S256x256_S256x256_S256x256_S256x256_S256x1024_d1 j
    3 (by show (3 : Nat) < 4; omega) S256x256 (transpose S256x256 [1, 0] (m ((c : Thread nD τ).loc main_arg9)) transposes_S256x256_S256x256_1_0) rfl rfl (256 * 3) (by rfl) (transposedEntry q j)
    (fun b hb => by
      match b with
      | ⟨0, _⟩ => rfl
      | ⟨1, _⟩ => exact absurd rfl hb)
    (by show 256 * 3 + q.val = (j 1).val; omega)).trans ?_
  exact transpose_apply [1, 0] _ transposes_S256x256_S256x256_1_0 (transposedEntry q j) (weightEntry q j) (fun b => match b with
    | ⟨0, _⟩ => rfl
    | ⟨1, _⟩ => rfl)

/-- Entry `256 * 0 + q` of the bias row is entry `q` of the forget gate's bias. -/
theorem fused_bias_forget (c : Dev nD) (j : S1x1024.Idx) (q : Fin 256) (hq : (j 1).val = 256 * 0 + q.val) :
    (entry m c main_v7 : S1x1024.Idx → EReal) j = m ((c : Thread nD τ).loc main_arg4) (ValueIdx.ix1 q) := by
  rw [launch_bias]
  have h0 : (j 0).val < 1 := (j 0).isLt
  refine (shapeCast_apply _ shapeCasts_S1024_S1x1024 j (flatEntry j) (by
    rw [Shape.rowMajor_val_one, Shape.rowMajor_val_two]
    show (j 1).val = (j 0).val * 1024 + (j 1).val
    omega)).trans ?_
  exact concatenate_apply_piece (0 : Fin S1024.rank) (biasPieces m c) concatenates_S256_S256_S256_S256_S1024_d0 (flatEntry j)
    0 (by show (0 : Nat) < 4; omega) S256 (m ((c : Thread nD τ).loc main_arg4)) rfl rfl (256 * 0) (by rfl) (ValueIdx.ix1 q)
    (fun b hb => by
      match b with
      | ⟨0, _⟩ => exact absurd rfl hb)
    (by show 256 * 0 + q.val = (j 1).val; omega)

/-- Entry `256 * 1 + q` of the bias row is entry `q` of the candidate gate's bias. -/
theorem fused_bias_candidate (c : Dev nD) (j : S1x1024.Idx) (q : Fin 256) (hq : (j 1).val = 256 * 1 + q.val) :
    (entry m c main_v7 : S1x1024.Idx → EReal) j = m ((c : Thread nD τ).loc main_arg6) (ValueIdx.ix1 q) := by
  rw [launch_bias]
  have h0 : (j 0).val < 1 := (j 0).isLt
  refine (shapeCast_apply _ shapeCasts_S1024_S1x1024 j (flatEntry j) (by
    rw [Shape.rowMajor_val_one, Shape.rowMajor_val_two]
    show (j 1).val = (j 0).val * 1024 + (j 1).val
    omega)).trans ?_
  exact concatenate_apply_piece (0 : Fin S1024.rank) (biasPieces m c) concatenates_S256_S256_S256_S256_S1024_d0 (flatEntry j)
    1 (by show (1 : Nat) < 4; omega) S256 (m ((c : Thread nD τ).loc main_arg6)) rfl rfl (256 * 1) (by rfl) (ValueIdx.ix1 q)
    (fun b hb => by
      match b with
      | ⟨0, _⟩ => exact absurd rfl hb)
    (by show 256 * 1 + q.val = (j 1).val; omega)

/-- Entry `256 * 2 + q` of the bias row is entry `q` of the input gate's bias. -/
theorem fused_bias_input (c : Dev nD) (j : S1x1024.Idx) (q : Fin 256) (hq : (j 1).val = 256 * 2 + q.val) :
    (entry m c main_v7 : S1x1024.Idx → EReal) j = m ((c : Thread nD τ).loc main_arg8) (ValueIdx.ix1 q) := by
  rw [launch_bias]
  have h0 : (j 0).val < 1 := (j 0).isLt
  refine (shapeCast_apply _ shapeCasts_S1024_S1x1024 j (flatEntry j) (by
    rw [Shape.rowMajor_val_one, Shape.rowMajor_val_two]
    show (j 1).val = (j 0).val * 1024 + (j 1).val
    omega)).trans ?_
  exact concatenate_apply_piece (0 : Fin S1024.rank) (biasPieces m c) concatenates_S256_S256_S256_S256_S1024_d0 (flatEntry j)
    2 (by show (2 : Nat) < 4; omega) S256 (m ((c : Thread nD τ).loc main_arg8)) rfl rfl (256 * 2) (by rfl) (ValueIdx.ix1 q)
    (fun b hb => by
      match b with
      | ⟨0, _⟩ => exact absurd rfl hb)
    (by show 256 * 2 + q.val = (j 1).val; omega)

/-- Entry `256 * 3 + q` of the bias row is entry `q` of the output gate's bias. -/
theorem fused_bias_output (c : Dev nD) (j : S1x1024.Idx) (q : Fin 256) (hq : (j 1).val = 256 * 3 + q.val) :
    (entry m c main_v7 : S1x1024.Idx → EReal) j = m ((c : Thread nD τ).loc main_arg10) (ValueIdx.ix1 q) := by
  rw [launch_bias]
  have h0 : (j 0).val < 1 := (j 0).isLt
  refine (shapeCast_apply _ shapeCasts_S1024_S1x1024 j (flatEntry j) (by
    rw [Shape.rowMajor_val_one, Shape.rowMajor_val_two]
    show (j 1).val = (j 0).val * 1024 + (j 1).val
    omega)).trans ?_
  exact concatenate_apply_piece (0 : Fin S1024.rank) (biasPieces m c) concatenates_S256_S256_S256_S256_S1024_d0 (flatEntry j)
    3 (by show (3 : Nat) < 4; omega) S256 (m ((c : Thread nD τ).loc main_arg10)) rfl rfl (256 * 3) (by rfl) (ValueIdx.ix1 q)
    (fun b hb => by
      match b with
      | ⟨0, _⟩ => exact absurd rfl hb)
    (by show 256 * 3 + q.val = (j 1).val; omega)

end Cert.KernelIdeal.Cell

end
-- ==== Proof.IdealCellArrays.lean ====
/-
  From blocks to arrays: after the launch the three result arrays hold the output gate, the new hidden
  state and the new cell state of the specification, as functions of the eleven arguments.

  Grid point t works on rows 2048 t .. 2048 t + 2047 of the batch arrays (and on the whole of the fused
  weight matrix and bias row). Entry y of a block is therefore entry (2048 t + row of y, column of y) of
  its array, and what the body computes for entry y of an output block is the specification's value at
  that entry of the array: quarter g of the fused pre-activations is gate g's pre-activation, because
  column 256 g + q of the fused matrix is row q of gate g's weights and entry 256 g + q of the fused bias
  is entry q of gate g's bias. Every row of an output array belongs to exactly the block of point
  row / 2048, and every point writes its block back, so the write-backs fill the arrays.
-/
import proofs.«424195_j80693845557463_3_alg».proof.Proof.IdealGrid
import proofs.«424195_j80693845557463_3_alg».proof.Proof.IdealCellValue
import proofs.«424195_j80693845557463_3_alg».proof.Proof.IdealFusedParams
import proofs.«424195_j80693845557463_3_alg».proof.Proof.LstmCellSpec

set_option maxRecDepth 16384

noncomputable section

namespace Cert.KernelIdeal.Cell

open Cert.KernelIdeal Cert.KernelIdeal.Gen Cert.LstmCell
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## Which block each grid point works on -/

/-- The block indices over the 32 grid points: the six batch windows are at block row `t`, the two
    resident windows at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Entry `y` of a batch block at point `t`, as an entry of the array: row `2048 t + row of y`. -/
abbrev arrayRow (t : Fin cfg0.N) (y : S2048x256.Idx) : S65536x256.Idx := fun a => match a with
  | ⟨0, _⟩ => ⟨2048 * t.val + (y 0).val, by
      have h0 : (y 0).val < 2048 := (y 0).isLt
      have ht : t.val < 32 := lt_of_lt_of_eq t.isLt N_0
      show 2048 * t.val + (y 0).val < 65536
      omega⟩
  | ⟨1, _⟩ => ⟨(y 1).val, (y 1).isLt⟩

theorem emb_batch0 (t : Fin cfg0.N) (y : S2048x256.Idx) : ((cfg0.win 0).blk t).view.emb y = arrayRow t y := by
  obtain ⟨e00, e01, e10, e11, e20, e21, e30, e31, e40, e41, e50, e51, e60, e61, e70, e71⟩ := block_indices t
  funext a; apply Fin.ext
  match a with
  | ⟨0, _⟩ => show win0_0.index t (0 : Fin 2) * 2048 + 1 * (y 0).val = 2048 * t.val + (y 0).val; omega
  | ⟨1, _⟩ => show win0_0.index t (1 : Fin 2) * 256 + 1 * (y 1).val = (y 1).val; omega
theorem emb_batch1 (t : Fin cfg0.N) (y : S2048x256.Idx) : ((cfg0.win 1).blk t).view.emb y = arrayRow t y := by
  obtain ⟨e00, e01, e10, e11, e20, e21, e30, e31, e40, e41, e50, e51, e60, e61, e70, e71⟩ := block_indices t
  funext a; apply Fin.ext
  match a with
  | ⟨0, _⟩ => show win0_1.index t (0 : Fin 2) * 2048 + 1 * (y 0).val = 2048 * t.val + (y 0).val; omega
  | ⟨1, _⟩ => show win0_1.index t (1 : Fin 2) * 256 + 1 * (y 1).val = (y 1).val; omega
theorem emb_batch2 (t : Fin cfg0.N) (y : S2048x256.Idx) : ((cfg0.win 2).blk t).view.emb y = arrayRow t y := by
  obtain ⟨e00, e01, e10, e11, e20, e21, e30, e31, e40, e41, e50, e51, e60, e61, e70, e71⟩ := block_indices t
  funext a; apply Fin.ext
  match a with
  | ⟨0, _⟩ => show win0_2.index t (0 : Fin 2) * 2048 + 1 * (y 0).val = 2048 * t.val + (y 0).val; omega
  | ⟨1, _⟩ => show win0_2.index t (1 : Fin 2) * 256 + 1 * (y 1).val = (y 1).val; omega
theorem emb_batch5 (t : Fin cfg0.N) (y : S2048x256.Idx) : ((cfg0.win 5).blk t).view.emb y = arrayRow t y := by
  obtain ⟨e00, e01, e10, e11, e20, e21, e30, e31, e40, e41, e50, e51, e60, e61, e70, e71⟩ := block_indices t
  funext a; apply Fin.ext
  match a with
  | ⟨0, _⟩ => show win0_5.index t (0 : Fin 2) * 2048 + 1 * (y 0).val = 2048 * t.val + (y 0).val; omega
  | ⟨1, _⟩ => show win0_5.index t (1 : Fin 2) * 256 + 1 * (y 1).val = (y 1).val; omega
theorem emb_batch6 (t : Fin cfg0.N) (y : S2048x256.Idx) : ((cfg0.win 6).blk t).view.emb y = arrayRow t y := by
  obtain ⟨e00, e01, e10, e11, e20, e21, e30, e31, e40, e41, e50, e51, e60, e61, e70, e71⟩ := block_indices t
  funext a; apply Fin.ext
  match a with
  | ⟨0, _⟩ => show win0_6.index t (0 : Fin 2) * 2048 + 1 * (y 0).val = 2048 * t.val + (y 0).val; omega
  | ⟨1, _⟩ => show win0_6.index t (1 : Fin 2) * 256 + 1 * (y 1).val = (y 1).val; omega
theorem emb_batch7 (t : Fin cfg0.N) (y : S2048x256.Idx) : ((cfg0.win 7).blk t).view.emb y = arrayRow t y := by
  obtain ⟨e00, e01, e10, e11, e20, e21, e30, e31, e40, e41, e50, e51, e60, e61, e70, e71⟩ := block_indices t
  funext a; apply Fin.ext
  match a with
  | ⟨0, _⟩ => show win0_7.index t (0 : Fin 2) * 2048 + 1 * (y 0).val = 2048 * t.val + (y 0).val; omega
  | ⟨1, _⟩ => show win0_7.index t (1 : Fin 2) * 256 + 1 * (y 1).val = (y 1).val; omega
theorem emb_weights (t : Fin cfg0.N) (y : S256x1024.Idx) : ((cfg0.win 3).blk t).view.emb y = y := by
  obtain ⟨e00, e01, e10, e11, e20, e21, e30, e31, e40, e41, e50, e51, e60, e61, e70, e71⟩ := block_indices t
  funext a; apply Fin.ext
  match a with
  | ⟨0, _⟩ => show win0_3.index t (0 : Fin 2) * 256 + 1 * (y 0).val = (y 0).val; omega
  | ⟨1, _⟩ => show win0_3.index t (1 : Fin 2) * 1024 + 1 * (y 1).val = (y 1).val; omega
theorem emb_bias (t : Fin cfg0.N) (y : S1x1024.Idx) : ((cfg0.win 4).blk t).view.emb y = y := by
  obtain ⟨e00, e01, e10, e11, e20, e21, e30, e31, e40, e41, e50, e51, e60, e61, e70, e71⟩ := block_indices t
  funext a; apply Fin.ext
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-! ## The five input blocks, entry by entry -/

abbrev xBlock (c : Dev nD) (t : Fin cfg0.N) : FVec Ideal S2048x256 .f32 := rowBlock m c 0 t
abbrev hBlock (c : Dev nD) (t : Fin cfg0.N) : FVec Ideal S2048x256 .f32 := rowBlock m c 1 t
abbrev cellBlockIn (c : Dev nD) (t : Fin cfg0.N) : FVec Ideal S2048x256 .f32 := rowBlock m c 2 t
abbrev wBlock (c : Dev nD) (t : Fin cfg0.N) : FVec Ideal S256x1024 .bf16 := rowBlock m c 3 t
abbrev bBlock (c : Dev nD) (t : Fin cfg0.N) : FVec Ideal S1x1024 .f32 := rowBlock m c 4 t

theorem xBlock_at (c : Dev nD) (t : Fin cfg0.N) (y : S2048x256.Idx) : xBlock m c t y = (m ((c : Thread nD τ).loc main_arg0)) (arrayRow t y) :=
  (congrArg (entry m c main_arg0) (emb_batch0 t y)).trans (congrFun (entry_arg0 m c) _)
theorem hBlock_at (c : Dev nD) (t : Fin cfg0.N) (y : S2048x256.Idx) : hBlock m c t y = (m ((c : Thread nD τ).loc main_arg1)) (arrayRow t y) :=
  (congrArg (entry m c main_arg1) (emb_batch1 t y)).trans (congrFun (entry_arg1 m c) _)
theorem cellBlockIn_at (c : Dev nD) (t : Fin cfg0.N) (y : S2048x256.Idx) : cellBlockIn m c t y = (m ((c : Thread nD τ).loc main_arg2)) (arrayRow t y) :=
  (congrArg (entry m c main_arg2) (emb_batch2 t y)).trans (congrFun (entry_arg2 m c) _)
theorem wBlock_at (c : Dev nD) (t : Fin cfg0.N) (y : S256x1024.Idx) : wBlock m c t y = (entry m c main_v5 : S256x1024.Idx → EReal) y :=
  congrArg (entry m c main_v5) (emb_weights t y)
theorem bBlock_at (c : Dev nD) (t : Fin cfg0.N) (y : S1x1024.Idx) : bBlock m c t y = (entry m c main_v7 : S1x1024.Idx → EReal) y :=
  congrArg (entry m c main_v7) (emb_bias t y)

/-! ## A quarter of the fused pre-activations is a gate's pre-activation -/

/-- Quarter `g` of the fused pre-activations of the block at point `t`, at entry `j`, is the pre-activation
    at that entry of the array of the gate whose weights fill columns `256 g ..` of the fused matrix and
    whose bias fills entries `256 g ..` of the fused bias row. -/
theorem quarter_is_gate (c : Dev nD) (t : Fin cfg0.N) (g : Fin 4) (W : S256x256.Idx → EReal) (b : S256.Idx → EReal)
    (hW : ∀ (jj : S256x1024.Idx) (q : Fin 256), (jj 1).val = 256 * g.val + q.val →
      (entry m c main_v5 : S256x1024.Idx → EReal) jj = W (weightEntry q jj))
    (hb : ∀ (jj : S1x1024.Idx) (q : Fin 256), (jj 1).val = 256 * g.val + q.val →
      (entry m c main_v7 : S1x1024.Idx → EReal) jj = b (ValueIdx.ix1 q))
    (j : S2048x256.Idx) :
    fused (xBlock m c t) (hBlock m c t) (wBlock m c t) (bBlock m c t) (quarter g j) = gatePre (m ((c : Thread nD τ).loc main_arg0)) (m ((c : Thread nD τ).loc main_arg1)) W b (arrayRow t j) := by
  unfold fused gatePre
  refine congrArg₂ (· + ·) (Finset.sum_congr rfl fun k _ => ?_) ?_
  · rw [xBlock_at, hBlock_at, wBlock_at, hW (fusedCol (quarter g j) k) ⟨(j 1).val, (j 1).isLt⟩ rfl]
    refine congrArg₂ (· * ·) (congrArg₂ (· + ·) (congrArg _ ?_) (congrArg _ ?_)) (congrArg W ?_)
    · exact funext fun a => Fin.ext (by
        match a with
        | ⟨0, _⟩ => rfl
        | ⟨1, _⟩ => rfl)
    · exact funext fun a => Fin.ext (by
        match a with
        | ⟨0, _⟩ => rfl
        | ⟨1, _⟩ => rfl)
    · exact funext fun a => Fin.ext (by
        match a with
        | ⟨0, _⟩ => rfl
        | ⟨1, _⟩ => rfl)
  · rw [bBlock_at, hb (fusedBias (quarter g j)) ⟨(j 1).val, (j 1).isLt⟩ rfl]
    exact congrArg b (funext fun a => Fin.ext (by
      match a with
      | ⟨0, _⟩ => rfl))

theorem forget_quarter (c : Dev nD) (t : Fin cfg0.N) (j : S2048x256.Idx) :
    fused (xBlock m c t) (hBlock m c t) (wBlock m c t) (bBlock m c t) (quarter 0 j) = gatePre (m ((c : Thread nD τ).loc main_arg0)) (m ((c : Thread nD τ).loc main_arg1)) (m ((c : Thread nD τ).loc main_arg3)) (m ((c : Thread nD τ).loc main_arg4)) (arrayRow t j) :=
  quarter_is_gate m c t 0 _ _ (fun jj q h => fused_weights_forget m c jj q h) (fun jj q h => fused_bias_forget m c jj q h) j
theorem candidate_quarter (c : Dev nD) (t : Fin cfg0.N) (j : S2048x256.Idx) :
    fused (xBlock m c t) (hBlock m c t) (wBlock m c t) (bBlock m c t) (quarter 1 j) = gatePre (m ((c : Thread nD τ).loc main_arg0)) (m ((c : Thread nD τ).loc main_arg1)) (m ((c : Thread nD τ).loc main_arg5)) (m ((c : Thread nD τ).loc main_arg6)) (arrayRow t j) :=
  quarter_is_gate m c t 1 _ _ (fun jj q h => fused_weights_candidate m c jj q h) (fun jj q h => fused_bias_candidate m c jj q h) j
theorem input_quarter (c : Dev nD) (t : Fin cfg0.N) (j : S2048x256.Idx) :
    fused (xBlock m c t) (hBlock m c t) (wBlock m c t) (bBlock m c t) (quarter 2 j) = gatePre (m ((c : Thread nD τ).loc main_arg0)) (m ((c : Thread nD τ).loc main_arg1)) (m ((c : Thread nD τ).loc main_arg7)) (m ((c : Thread nD τ).loc main_arg8)) (arrayRow t j) :=
  quarter_is_gate m c t 2 _ _ (fun jj q h => fused_weights_input m c jj q h) (fun jj q h => fused_bias_input m c jj q h) j
theorem output_quarter (c : Dev nD) (t : Fin cfg0.N) (j : S2048x256.Idx) :
    fused (xBlock m c t) (hBlock m c t) (wBlock m c t) (bBlock m c t) (quarter 3 j) = gatePre (m ((c : Thread nD τ).loc main_arg0)) (m ((c : Thread nD τ).loc main_arg1)) (m ((c : Thread nD τ).loc main_arg9)) (m ((c : Thread nD τ).loc main_arg10)) (arrayRow t j) :=
  quarter_is_gate m c t 3 _ _ (fun jj q h => fused_weights_output m c jj q h) (fun jj q h => fused_bias_output m c jj q h) j

/-! ## What each grid point writes back -/

/-- Point `t` writes back block `t` of the output gate. -/
theorem flushed_outGate (c : Dev nD) (t : Fin cfg0.N) :
    (grid m 0 c).flushed 5 t = ((cfg0.win 5).blk t).view.read (Elt Ideal) (outGate (m ((c : Thread nD τ).loc main_arg0)) (m ((c : Thread nD τ).loc main_arg1)) (m ((c : Thread nD τ).loc main_arg9)) (m ((c : Thread nD τ).loc main_arg10))) := by
  show (cfg0.win 5).cut (grid0.coords t) ((grid m 0 c).after 5 t) = _
  rw [after_outGate]
  unfold outGateBlock
  rw [View.canon_unit_zero zero_offsets]
  simp only [View.ld_unit_zero (S := S2048x256) zero_offsets, View.ld_unit_zero (S := S256x1024) zero_offsets, View.ld_unit_zero (S := S1x1024) zero_offsets]
  funext j
  show k0_pay3 (F := Ideal) (xBlock m c t) (hBlock m c t) (wBlock m c t) (bBlock m c t) j = (outGate (m ((c : Thread nD τ).loc main_arg0)) (m ((c : Thread nD τ).loc main_arg1)) (m ((c : Thread nD τ).loc main_arg9)) (m ((c : Thread nD τ).loc main_arg10))) (((cfg0.win 5).blk t).view.emb j)
  rw [emb_batch5, outGate_payload_at, output_quarter]
  rfl

/-- Point `t` writes back block `t` of the new cell state. -/
theorem flushed_cell (c : Dev nD) (t : Fin cfg0.N) :
    (grid m 0 c).flushed 7 t = ((cfg0.win 7).blk t).view.read (Elt Ideal) (cellState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show (cfg0.win 7).cut (grid0.coords t) ((grid m 0 c).after 7 t) = _
  rw [after_cell]
  unfold cellBlock
  rw [View.canon_unit_zero zero_offsets]
  simp only [View.ld_unit_zero (S := S2048x256) zero_offsets, View.ld_unit_zero (S := S256x1024) zero_offsets, View.ld_unit_zero (S := S1x1024) zero_offsets]
  funext j
  show k0_pay2 (F := Ideal) (xBlock m c t) (hBlock m c t) (wBlock m c t) (bBlock m c t) (cellBlockIn m c t) j = (cellState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (((cfg0.win 7).blk t).view.emb j)
  rw [emb_batch7, cell_payload_at, forget_quarter, candidate_quarter, input_quarter, cellBlockIn_at]
  rfl

/-- Point `t` writes back block `t` of the new hidden state. -/
theorem flushed_hidden (c : Dev nD) (t : Fin cfg0.N) :
    (grid m 0 c).flushed 6 t = ((cfg0.win 6).blk t).view.read (Elt Ideal) (hiddenState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show (cfg0.win 6).cut (grid0.coords t) ((grid m 0 c).after 6 t) = _
  rw [after_hidden]
  unfold hiddenBlock
  rw [View.canon_unit_zero zero_offsets]
  simp only [View.ld_unit_zero (S := S2048x256) zero_offsets, View.ld_unit_zero (S := S256x1024) zero_offsets, View.ld_unit_zero (S := S1x1024) zero_offsets]
  funext j
  show k0_pay4 (F := Ideal) (xBlock m c t) (hBlock m c t) (wBlock m c t) (bBlock m c t) (cellBlockIn m c t) j = (hiddenState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (((cfg0.win 6).blk t).view.emb j)
  rw [emb_batch6, hidden_payload_at, outGate_payload_at, output_quarter, cell_payload_at, forget_quarter, candidate_quarter,
    input_quarter, cellBlockIn_at]
  rfl

/-! ## The blocks fill the arrays -/

theorem mem_blk5 (t : Fin cfg0.N) (i : S65536x256.Idx) :
    i ∈ ((cfg0.win 5).blk t).view.set ↔ ∀ a : Fin 2, win0_5.index t a * S2048x256.size a ≤ (i a).val ∧ (i a).val < win0_5.index t a * S2048x256.size a + S2048x256.size a := by
  show i ∈ ((View.whole main_v8_0).slice (win0_5.rect t)).set ↔ _
  rw [View.set_slice_whole, Rect.mem_set_unit]
  exact Iff.rfl

/-- Every row of the array lies in the block of the point `row / 2048`, which writes back. -/
theorem covered5 (i : S65536x256.Idx) : ∃ t : Fin cfg0.N, (cfg0.win 5).flush t = true ∧ i ∈ ((cfg0.win 5).blk t).view.set := by
  have hi0 : (i 0).val < 65536 := (i 0).isLt
  have hi1 : (i 1).val < 256 := (i 1).isLt
  have ht : (i 0).val / 2048 < cfg0.N := by rw [show cfg0.N = 32 from N_0]; omega
  obtain ⟨e00, e01, e10, e11, e20, e21, e30, e31, e40, e41, e50, e51, e60, e61, e70, e71⟩ := block_indices ⟨(i 0).val / 2048, ht⟩
  refine ⟨⟨(i 0).val / 2048, ht⟩, flush0_5 _, ?_⟩
  rw [mem_blk5]
  intro a
  match a with
  | ⟨0, _⟩ =>
    show win0_5.index ⟨(i 0).val / 2048, ht⟩ (0 : Fin 2) * 2048 ≤ (i 0).val ∧ (i 0).val < win0_5.index ⟨(i 0).val / 2048, ht⟩ (0 : Fin 2) * 2048 + 2048
    have : ((⟨(i 0).val / 2048, ht⟩ : Fin cfg0.N) : ℕ) = (i 0).val / 2048 := rfl
    omega
  | ⟨1, _⟩ =>
    show win0_5.index ⟨(i 0).val / 2048, ht⟩ (1 : Fin 2) * 256 ≤ (i 1).val ∧ (i 1).val < win0_5.index ⟨(i 0).val / 2048, ht⟩ (1 : Fin 2) * 256 + 256
    omega

theorem mem_blk6 (t : Fin cfg0.N) (i : S65536x256.Idx) :
    i ∈ ((cfg0.win 6).blk t).view.set ↔ ∀ a : Fin 2, win0_6.index t a * S2048x256.size a ≤ (i a).val ∧ (i a).val < win0_6.index t a * S2048x256.size a + S2048x256.size a := by
  show i ∈ ((View.whole main_v8_1).slice (win0_6.rect t)).set ↔ _
  rw [View.set_slice_whole, Rect.mem_set_unit]
  exact Iff.rfl

/-- Every row of the array lies in the block of the point `row / 2048`, which writes back. -/
theorem covered6 (i : S65536x256.Idx) : ∃ t : Fin cfg0.N, (cfg0.win 6).flush t = true ∧ i ∈ ((cfg0.win 6).blk t).view.set := by
  have hi0 : (i 0).val < 65536 := (i 0).isLt
  have hi1 : (i 1).val < 256 := (i 1).isLt
  have ht : (i 0).val / 2048 < cfg0.N := by rw [show cfg0.N = 32 from N_0]; omega
  obtain ⟨e00, e01, e10, e11, e20, e21, e30, e31, e40, e41, e50, e51, e60, e61, e70, e71⟩ := block_indices ⟨(i 0).val / 2048, ht⟩
  refine ⟨⟨(i 0).val / 2048, ht⟩, flush0_6 _, ?_⟩
  rw [mem_blk6]
  intro a
  match a with
  | ⟨0, _⟩ =>
    show win0_6.index ⟨(i 0).val / 2048, ht⟩ (0 : Fin 2) * 2048 ≤ (i 0).val ∧ (i 0).val < win0_6.index ⟨(i 0).val / 2048, ht⟩ (0 : Fin 2) * 2048 + 2048
    have : ((⟨(i 0).val / 2048, ht⟩ : Fin cfg0.N) : ℕ) = (i 0).val / 2048 := rfl
    omega
  | ⟨1, _⟩ =>
    show win0_6.index ⟨(i 0).val / 2048, ht⟩ (1 : Fin 2) * 256 ≤ (i 1).val ∧ (i 1).val < win0_6.index ⟨(i 0).val / 2048, ht⟩ (1 : Fin 2) * 256 + 256
    omega

theorem mem_blk7 (t : Fin cfg0.N) (i : S65536x256.Idx) :
    i ∈ ((cfg0.win 7).blk t).view.set ↔ ∀ a : Fin 2, win0_7.index t a * S2048x256.size a ≤ (i a).val ∧ (i a).val < win0_7.index t a * S2048x256.size a + S2048x256.size a := by
  show i ∈ ((View.whole main_v8_2).slice (win0_7.rect t)).set ↔ _
  rw [View.set_slice_whole, Rect.mem_set_unit]
  exact Iff.rfl

/-- Every row of the array lies in the block of the point `row / 2048`, which writes back. -/
theorem covered7 (i : S65536x256.Idx) : ∃ t : Fin cfg0.N, (cfg0.win 7).flush t = true ∧ i ∈ ((cfg0.win 7).blk t).view.set := by
  have hi0 : (i 0).val < 65536 := (i 0).isLt
  have hi1 : (i 1).val < 256 := (i 1).isLt
  have ht : (i 0).val / 2048 < cfg0.N := by rw [show cfg0.N = 32 from N_0]; omega
  obtain ⟨e00, e01, e10, e11, e20, e21, e30, e31, e40, e41, e50, e51, e60, e61, e70, e71⟩ := block_indices ⟨(i 0).val / 2048, ht⟩
  refine ⟨⟨(i 0).val / 2048, ht⟩, flush0_7 _, ?_⟩
  rw [mem_blk7]
  intro a
  match a with
  | ⟨0, _⟩ =>
    show win0_7.index ⟨(i 0).val / 2048, ht⟩ (0 : Fin 2) * 2048 ≤ (i 0).val ∧ (i 0).val < win0_7.index ⟨(i 0).val / 2048, ht⟩ (0 : Fin 2) * 2048 + 2048
    have : ((⟨(i 0).val / 2048, ht⟩ : Fin cfg0.N) : ℕ) = (i 0).val / 2048 := rfl
    omega
  | ⟨1, _⟩ =>
    show win0_7.index ⟨(i 0).val / 2048, ht⟩ (1 : Fin 2) * 256 ≤ (i 1).val ∧ (i 1).val < win0_7.index ⟨(i 0).val / 2048, ht⟩ (1 : Fin 2) * 256 + 256
    omega

/-! ## The three arrays after the launch -/

theorem final_outGate (c : Dev nD) : (grid m 0 c).arrAt 5 cfg0.N = (outGate (m ((c : Thread nD τ).loc main_arg0)) (m ((c : Thread nD τ).loc main_arg1)) (m ((c : Thread nD τ).loc main_arg9)) (m ((c : Thread nD τ).loc main_arg10))) :=
  (grid m 0 c).arrAt_eq_of_cover 5 (outGate (m ((c : Thread nD τ).loc main_arg0)) (m ((c : Thread nD τ).loc main_arg1)) (m ((c : Thread nD τ).loc main_arg9)) (m ((c : Thread nD τ).loc main_arg10))) (fun t _ => flushed_outGate m c t) covered5
theorem final_hidden (c : Dev nD) : (grid m 0 c).arrAt 6 cfg0.N = (hiddenState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (grid m 0 c).arrAt_eq_of_cover 6 (hiddenState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (fun t _ => flushed_hidden m c t) covered6
theorem final_cell (c : Dev nD) : (grid m 0 c).arrAt 7 cfg0.N = (cellState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (grid m 0 c).arrAt_eq_of_cover 7 (cellState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushed_cell m c t) covered7

/-- The run of the idealized kernel's @main: the three results are the specification's three functions of
    the arguments, and the arguments are unchanged. -/
theorem value_run : θ_run defs (onTc (τ := τ) (main (F := Ideal))) ⟨m, fun _ => 0, ρ⟩ fun r => ∀ c : Dev nD,
      r.2.mem ((c.tc : Thread nD τ).loc main_v8_0) = (outGate (m ((c : Thread nD τ).loc main_arg0)) (m ((c : Thread nD τ).loc main_arg1)) (m ((c : Thread nD τ).loc main_arg9)) (m ((c : Thread nD τ).loc main_arg10)))
      ∧ r.2.mem ((c.tc : Thread nD τ).loc main_v8_1) = (hiddenState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
      ∧ r.2.mem ((c.tc : Thread nD τ).loc main_v8_2) = (cellState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 5).trans (final_outGate m c), ((h c).1 6).trans (final_hidden m c),
      ((h c).1 7).trans (final_cell m c), kept_of_post m (grid m) (grid_A m) r h c⟩)
    (launch_run m ρ)

end Cert.KernelIdeal.Cell

end
-- ==== Proof.ReferenceGates.lean ====
/-
  The reference program, read stage by stage, computes the three functions of the specification.

  Each of its four matrix products is a row of `x + h` against one row of a gate's weight matrix (the
  product is against the transposed matrix, contracted over its first axis, so entry (k, j) of the
  transpose is entry (j, k) of the weights), and the bias is broadcast along the rows: that is `gatePre`.
  Each logistic is spelt `1 / (1 + exp (-z))` with the literal one, which is the logistic function on the
  extended reals. The rest is the same products and sums as the specification, in the same order.
-/
import proofs.«424195_j80693845557463_3_alg».proof.Proof.Gen.ReferenceIdeal.Run
import proofs.«424195_j80693845557463_3_alg».proof.Proof.Gen.ReferenceIdeal.Read
import proofs.«424195_j80693845557463_3_alg».proof.Proof.LstmCellSpec

noncomputable section

namespace Cert.ReferenceIdeal.Gates

open Cert.ReferenceIdeal Cert.ReferenceIdeal.Gen Cert.ReferenceIdeal.Read Cert.LstmCell
open Idealize.ShloMosaic Idealize.ShloMosaic.TcCoe Idealize.SL.Sem

/-! ## The four pre-activations -/

/-- The forget gate's pre-activation stage is `gatePre` of its weights and bias. -/
theorem pre_forget (x0 x1 : (⟨S65536x256, .f32⟩ : BufTy).Contents (Elt Ideal)) (x3 : (⟨S256x256, .f32⟩ : BufTy).Contents (Elt Ideal)) (x4 : (⟨S256, .f32⟩ : BufTy).Contents (Elt Ideal)) (i : S65536x256.Idx) :
    val_main_v5 (F := Ideal) x0 x1 x3 x4 i = gatePre x0 x1 x3 x4 i := by
  rw [val_main_v5_apply, val_main_v2_apply, val_main_v4_apply, val_main_v3_apply]
  unfold gatePre
  show (∑ k : Fin 256, _) + _ = (∑ k : Fin 256, _) + _
  refine congrArg₂ (· + ·) (Finset.sum_congr rfl fun k _ => ?_) (congrArg x4 (funext fun a => Fin.ext (by
    match a with
    | ⟨0, _⟩ => rfl)))
  rw [val_main_v0_apply, val_main_v1_apply]
  refine congrArg₂ (· * ·) rfl (congrArg x3 (funext fun a => Fin.ext (by
    match a with
    | ⟨0, _⟩ => rfl
    | ⟨1, _⟩ => rfl)))

/-- The candidate gate's pre-activation stage is `gatePre` of its weights and bias. -/
theorem pre_candidate (x0 x1 : (⟨S65536x256, .f32⟩ : BufTy).Contents (Elt Ideal)) (x5 : (⟨S256x256, .f32⟩ : BufTy).Contents (Elt Ideal)) (x6 : (⟨S256, .f32⟩ : BufTy).Contents (Elt Ideal)) (i : S65536x256.Idx) :
    val_main_v16 (F := Ideal) x0 x1 x5 x6 i = gatePre x0 x1 x5 x6 i := by
  rw [val_main_v16_apply, val_main_v13_apply, val_main_v15_apply, val_main_v14_apply]
  unfold gatePre
  show (∑ k : Fin 256, _) + _ = (∑ k : Fin 256, _) + _
  refine congrArg₂ (· + ·) (Finset.sum_congr rfl fun k _ => ?_) (congrArg x6 (funext fun a => Fin.ext (by
    match a with
    | ⟨0, _⟩ => rfl)))
  rw [val_main_v0_apply, val_main_v12_apply]
  refine congrArg₂ (· * ·) rfl (congrArg x5 (funext fun a => Fin.ext (by
    match a with
    | ⟨0, _⟩ => rfl
    | ⟨1, _⟩ => rfl)))

/-- The input gate's pre-activation stage is `gatePre` of its weights and bias. -/
theorem pre_input (x0 x1 : (⟨S65536x256, .f32⟩ : BufTy).Contents (Elt Ideal)) (x7 : (⟨S256x256, .f32⟩ : BufTy).Contents (Elt Ideal)) (x8 : (⟨S256, .f32⟩ : BufTy).Contents (Elt Ideal)) (i : S65536x256.Idx) :
    val_main_v22 (F := Ideal) x0 x1 x7 x8 i = gatePre x0 x1 x7 x8 i := by
  rw [val_main_v22_apply, val_main_v19_apply, val_main_v21_apply, val_main_v20_apply]
  unfold gatePre
  show (∑ k : Fin 256, _) + _ = (∑ k : Fin 256, _) + _
  refine congrArg₂ (· + ·) (Finset.sum_congr rfl fun k _ => ?_) (congrArg x8 (funext fun a => Fin.ext (by
    match a with
    | ⟨0, _⟩ => rfl)))
  rw [val_main_v0_apply, val_main_v18_apply]
  refine congrArg₂ (· * ·) rfl (congrArg x7 (funext fun a => Fin.ext (by
    match a with
    | ⟨0, _⟩ => rfl
    | ⟨1, _⟩ => rfl)))

/-- The output gate's pre-activation stage is `gatePre` of its weights and bias. -/
theorem pre_output (x0 x1 : (⟨S65536x256, .f32⟩ : BufTy).Contents (Elt Ideal)) (x9 : (⟨S256x256, .f32⟩ : BufTy).Contents (Elt Ideal)) (x10 : (⟨S256, .f32⟩ : BufTy).Contents (Elt Ideal)) (i : S65536x256.Idx) :
    val_main_v42 (F := Ideal) x0 x1 x9 x10 i = gatePre x0 x1 x9 x10 i := by
  rw [val_main_v42_apply, val_main_v39_apply, val_main_v41_apply, val_main_v40_apply]
  unfold gatePre
  show (∑ k : Fin 256, _) + _ = (∑ k : Fin 256, _) + _
  refine congrArg₂ (· + ·) (Finset.sum_congr rfl fun k _ => ?_) (congrArg x10 (funext fun a => Fin.ext (by
    match a with
    | ⟨0, _⟩ => rfl)))
  rw [val_main_v0_apply, val_main_v38_apply]
  refine congrArg₂ (· * ·) rfl (congrArg x9 (funext fun a => Fin.ext (by
    match a with
    | ⟨0, _⟩ => rfl
    | ⟨1, _⟩ => rfl)))

/-! ## The logistics -/

/-- The forget gate. -/
theorem forget_gate (x0 x1 : (⟨S65536x256, .f32⟩ : BufTy).Contents (Elt Ideal)) (x3 : (⟨S256x256, .f32⟩ : BufTy).Contents (Elt Ideal)) (x4 : (⟨S256, .f32⟩ : BufTy).Contents (Elt Ideal)) (i : S65536x256.Idx) :
    val_main_v11 (F := Ideal) x0 x1 x3 x4 i = Ideal.logistic (gatePre x0 x1 x3 x4 i) := by
  rw [val_main_v11_apply, val_main_v10_apply, val_main_cst_0_apply, val_main_v9_apply, val_main_v8_apply, val_main_cst_apply,
    val_main_v7_apply, val_main_v6_apply, pre_forget]
  exact logistic_as_quotient _

/-- The input gate squashed once ... -/
theorem input_gate_once (x0 x1 : (⟨S65536x256, .f32⟩ : BufTy).Contents (Elt Ideal)) (x7 : (⟨S256x256, .f32⟩ : BufTy).Contents (Elt Ideal)) (x8 : (⟨S256, .f32⟩ : BufTy).Contents (Elt Ideal)) (i : S65536x256.Idx) :
    val_main_v28 (F := Ideal) x0 x1 x7 x8 i = Ideal.logistic (gatePre x0 x1 x7 x8 i) := by
  rw [val_main_v28_apply, val_main_v27_apply, val_main_cst_2_apply, val_main_v26_apply, val_main_v25_apply, val_main_cst_1_apply,
    val_main_v24_apply, val_main_v23_apply, pre_input]
  exact logistic_as_quotient _

/-- ... and twice. -/
theorem input_gate_twice (x0 x1 : (⟨S65536x256, .f32⟩ : BufTy).Contents (Elt Ideal)) (x7 : (⟨S256x256, .f32⟩ : BufTy).Contents (Elt Ideal)) (x8 : (⟨S256, .f32⟩ : BufTy).Contents (Elt Ideal)) (i : S65536x256.Idx) :
    val_main_v34 (F := Ideal) x0 x1 x7 x8 i = Ideal.logistic (Ideal.logistic (gatePre x0 x1 x7 x8 i)) := by
  rw [val_main_v34_apply, val_main_v33_apply, val_main_cst_4_apply, val_main_v32_apply, val_main_v31_apply, val_main_cst_3_apply,
    val_main_v30_apply, val_main_v29_apply, input_gate_once]
  exact logistic_as_quotient _

/-- The output gate. -/
theorem output_gate (x0 x1 : (⟨S65536x256, .f32⟩ : BufTy).Contents (Elt Ideal)) (x9 : (⟨S256x256, .f32⟩ : BufTy).Contents (Elt Ideal)) (x10 : (⟨S256, .f32⟩ : BufTy).Contents (Elt Ideal)) (i : S65536x256.Idx) :
    val_main_v48 (F := Ideal) x0 x1 x9 x10 i = Ideal.logistic (gatePre x0 x1 x9 x10 i) := by
  rw [val_main_v48_apply, val_main_v47_apply, val_main_cst_6_apply, val_main_v46_apply, val_main_v45_apply, val_main_cst_5_apply,
    val_main_v44_apply, val_main_v43_apply, pre_output]
  exact logistic_as_quotient _

/-! ## The three results -/

/-- The reference's first result is the output gate. -/
theorem out_eq (x0 x1 : (⟨S65536x256, .f32⟩ : BufTy).Contents (Elt Ideal)) (x9 : (⟨S256x256, .f32⟩ : BufTy).Contents (Elt Ideal)) (x10 : (⟨S256, .f32⟩ : BufTy).Contents (Elt Ideal)) :
    val_main_v48 (F := Ideal) x0 x1 x9 x10 = outGate x0 x1 x9 x10 :=
  funext fun i => output_gate x0 x1 x9 x10 i

/-- The reference's third result is the new cell state. -/
theorem cell_eq (x0 x1 x2 : (⟨S65536x256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) :
    val_main_v37 (F := Ideal) x0 x1 x2 x3 x4 x5 x6 x7 x8 = cellState x0 x1 x2 x3 x4 x5 x6 x7 x8 := by
  funext i
  rw [val_main_v37_apply, val_main_v35_apply, val_main_v36_apply, val_main_v17_apply, forget_gate, input_gate_twice, pre_candidate]
  rfl

/-- The reference's second result is the new hidden state. -/
theorem hidden_eq (x0 x1 x2 : (⟨S65536x256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal))
    (x9 : (⟨S256x256, .f32⟩ : BufTy).Contents (Elt Ideal)) (x10 : (⟨S256, .f32⟩ : BufTy).Contents (Elt Ideal)) :
    val_main_v50 (F := Ideal) x0 x1 x2 x3 x4 x5 x6 x7 x8 x9 x10 = hiddenState x0 x1 x2 x3 x4 x5 x6 x7 x8 x9 x10 := by
  funext i
  rw [val_main_v50_apply, val_main_v49_apply, output_gate, cell_eq]
  rfl

end Cert.ReferenceIdeal.Gates

end
-- ==== Proof.lean ====
/-
  An LSTM cell, fused: the kernel against its reference, entry by entry over the extended reals.

  With s = x + h, a gate's pre-activation is pre(W, b)(r, j) = (sum over k of s(r, k) * W(j, k)) + b(j),
  and the three results are

      out    = sigma (pre(Wo, bo))
      cell'  = cell * sigma (pre(Wf, bf)) + tanh (pre(Wc, bc)) * sigma (sigma (pre(Wi, bi)))
      hidden = out * tanh (cell'),

  sigma the logistic function (Proof/LstmCellSpec.lean).

  The reference computes each pre-activation by its own matrix product and spells each logistic as the
  quotient 1 / (1 + exp (-z)); read stage by stage it is the three functions above
  (Proof/ReferenceGates.lean). The kernel lays the four transposed weight matrices side by side and the four
  biases end to end on the host, then runs 32 grid points, each taking 2048 rows: one product of the
  block of s against the fused 256 x 1024 matrix, the bias row added, the four quarters of the result
  through the logistic and the hyperbolic tangent (Proof/IdealCellValue.lean, Proof/IdealFusedParams.lean).
  Quarter g of the fused product is gate g's pre-activation, each point writes back its block of rows,
  and the 32 blocks fill the arrays (Proof/IdealCellArrays.lean). Narrowing to bf16 is the identity on the
  extended reals, and no step rearranges a sum or distributes a product, so the precondition that the
  inputs are finite is never opened.

  Both kernel programs run to the end and leave their arguments alone: the host prefix writes only
  buffers of its own, the launch only reads the three batch inputs, and the eight parameter arrays are
  no operand of the launch (Proof/IdealGrid.lean at the extended reals, Proof/WordGrid.lean at machine
  words: one text). The idealized kernel is the word-level kernel's own text, so there is nothing to
  preserve beyond that.
-/
import proofs.«424195_j80693845557463_3_alg».proof.Defs
import proofs.«424195_j80693845557463_3_alg».proof.Proof.Gen.Kernel
import proofs.«424195_j80693845557463_3_alg».proof.Proof.Gen.KernelIdeal
import proofs.«424195_j80693845557463_3_alg».proof.Proof.Gen.ReferenceIdeal
import proofs.«424195_j80693845557463_3_alg».proof.Proof.Gen.Pre_finite_inputs
import proofs.«424195_j80693845557463_3_alg».proof.Proof.Gen.ReferenceIdeal.Run
import proofs.«424195_j80693845557463_3_alg».proof.Proof.Gen.ReferenceIdeal.Read
import proofs.«424195_j80693845557463_3_alg».proof.Proof.WordGrid
import proofs.«424195_j80693845557463_3_alg».proof.Proof.IdealCellArrays
import proofs.«424195_j80693845557463_3_alg».proof.Proof.ReferenceGates
import Idealize.ShloMosaic.Adequacy
import Idealize.ShloMosaic.Init

noncomputable section

namespace Cert.Proof

open Idealize.ShloMosaic Idealize.ShloMosaic.TcCoe Idealize.SL.Sem Cert.LstmCell

/-- The word-level kernel runs to the end and leaves its eleven arguments unchanged. -/
theorem frame_word : Cert.frame_Kernel := fun m ρ _ => Cert.Kernel.Cell.args_unchanged (F := Bits) m ρ

/-- So does the idealized kernel. -/
theorem frame_ideal : Cert.frame_KernelIdeal := fun m ρ _ => Cert.KernelIdeal.Cell.args_unchanged (F := Ideal) m ρ

/-- The reference is host operations only: its run, with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories that agree on the arguments, both programs end with the output gate, the new hidden
    state and the new cell state of the specification in their three results. -/
theorem algebraic : Cert.algebraic_KernelIdeal_ReferenceIdeal := by
  intro m ρ m' ρ' _ hagree
  refine ⟨_, _, _, Cert.KernelIdeal.Cell.value_run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10⟩ := hagree c
  obtain ⟨r48, r50, r37, kept⟩ := h c
  refine ⟨?_, ?_, ?_, kept⟩
  · rw [r48, Cert.ReferenceIdeal.Read.val_main_v48_eq, Cert.ReferenceIdeal.Gates.out_eq, a0, a1, a9, a10]
  · rw [r50, Cert.ReferenceIdeal.Read.val_main_v50_eq, Cert.ReferenceIdeal.Gates.hidden_eq, a0, a1, a2, a3, a4, a5, a6, a7, a8, a9, a10]
  · rw [r37, Cert.ReferenceIdeal.Read.val_main_v37_eq, Cert.ReferenceIdeal.Gates.cell_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_word, frame_ideal, frame_reference, trivial, algebraic⟩

end Cert.Proof

end
